-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x8192 : Shape := ⟨3, ![2, 3, 8192]⟩
abbrev S_ : Shape := ⟨0, ![]⟩

class Facts : Prop where
  bcast_S_S2x3x8192 : S_.BroadcastsInDim S2x3x8192 (![] : Fin 0 → Fin S2x3x8192.rank)
  reducesTo_S2x3x8192_S_d0_1_2 : S2x3x8192.ReducesTo [0, 1, 2] S_
  h_S_ : 0 < S_.numel

variable [Facts]

def fn {F : FTy → Type} [FloatOps F] (main_arg0 : FVec F S2x3x8192 .f32) (main_arg1 : FVec F S2x3x8192 .f32) : IVec S_ 1 :=
  let main_v0 : FVec F S2x3x8192 .f32 := Host.absf main_arg0
  let main_cst : FVec F S_ .f32 := constant S_ .f32 0x7F800000#32
  let main_v1 : FVec F S2x3x8192 .f32 := broadcastInDim S2x3x8192 ![] bcast_S_S2x3x8192 main_cst
  let main_v2 : IVec S2x3x8192 1 := cmpf .olt main_v0 main_v1
  let main_c : IVec S_ 1 := constantI S_ 1 1#1
  let main_v3 : IVec S_ 1 := (fun x v => Host.reduce IntOp.andi x v reducesTo_S2x3x8192_S_d0_1_2 h_S_) main_v2 main_c
  let main_v4 : FVec F S2x3x8192 .f32 := Host.absf main_arg1
  let main_cst_0 : FVec F S_ .f32 := constant S_ .f32 0x7F800000#32
  let main_v5 : FVec F S2x3x8192 .f32 := broadcastInDim S2x3x8192 ![] bcast_S_S2x3x8192 main_cst_0
  let main_v6 : IVec S2x3x8192 1 := cmpf .olt main_v4 main_v5
  let main_c_1 : IVec S_ 1 := constantI S_ 1 1#1
  let main_v7 : IVec S_ 1 := (fun x v => Host.reduce IntOp.andi x v reducesTo_S2x3x8192_S_d0_1_2 h_S_) main_v6 main_c_1
  let main_v8 : IVec S_ 1 := andi main_v3 main_v7
  main_v8
-- ==== Kernel.lean ====
abbrev S2x3x8192 : Shape := ⟨3, ![2, 3, 8192]⟩
abbrev S2x8192x3 : Shape := ⟨3, ![2, 8192, 3]⟩
abbrev S2x8192 : Shape := ⟨2, ![2, 8192]⟩
abbrev S2x1024x3 : Shape := ⟨3, ![2, 1024, 3]⟩
abbrev S2x512x3 : Shape := ⟨3, ![2, 512, 3]⟩
abbrev S2x1024 : Shape := ⟨2, ![2, 1024]⟩
abbrev S2x1024x1 : Shape := ⟨3, ![2, 1024, 1]⟩
abbrev S2x512 : Shape := ⟨2, ![2, 512]⟩
abbrev S2x1x512 : Shape := ⟨3, ![2, 1, 512]⟩
abbrev S2x512x1 : Shape := ⟨3, ![2, 512, 1]⟩
abbrev S2x1024x512 : Shape := ⟨3, ![2, 1024, 512]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S2x3x8192, .f32⟩
  | .hbm, ⟨1, _⟩ => ⟨S2x3x8192, .f32⟩
  | .hbm, ⟨2, _⟩ => ⟨S2x8192x3, .f32⟩
  | .hbm, ⟨3, _⟩ => ⟨S2x8192x3, .f32⟩
  | .hbm, ⟨4, _⟩ => ⟨S2x8192, .f32⟩
  | .hbm, ⟨5, _⟩ => ⟨S2x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S2x1024x3, .f32⟩
  | .local _ .vmem, ⟨1, _⟩ => ⟨S2x1024x3, .f32⟩
  | .local _ .vmem, ⟨2, _⟩ => ⟨S2x512x3, .f32⟩
  | .local _ .vmem, ⟨3, _⟩ => ⟨S2x512x3, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024x3, .f32⟩
  | .local _ .vmem, ⟨8, _⟩ => ⟨S2x1024x3, .f32⟩
  | .local _ .vmem, ⟨9, _⟩ => ⟨S2x512x3, .f32⟩
  | .local _ .vmem, ⟨10, _⟩ => ⟨S2x512x3, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | _, _ => ⟨S2x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_15 : BitVec 32 := 0#32
  let v55 : BitVec 1 := Scalar.cmpi .ne v54 c0_i32_15
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_15 : BitVec 32 := 0#32
  let v55 : BitVec 1 := Scalar.cmpi .ne v54 c0_i32_15
  v55

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S2x3x8192_S2x8192x3_0_2_1 : S2x3x8192.Transposes [0, 2, 1] S2x8192x3
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S2x1024x3_S2x1024x3_0_0_0 : ∀ a, (![0, 0, 0] : Fin 3 → Nat) a + S2x1024x3.size a ≤ S2x1024x3.size a
  h_S2x1024x3 : 0 < S2x1024x3.numel
  shapeCasts_S2x1024x3_S2x1024x3 : S2x1024x3.ShapeCasts S2x1024x3
  inb_S2x512x3_S2x512x3_0_0_0 : ∀ a, (![0, 0, 0] : Fin 3 → Nat) a + S2x512x3.size a ≤ S2x512x3.size a
  h_S2x512x3 : 0 < S2x512x3.numel
  shapeCasts_S2x512x3_S2x512x3 : S2x512x3.ShapeCasts S2x512x3
  reduces_S2x1024x3_S2x1024 : S2x1024x3.Reduces [2] S2x1024
  shapeCasts_S2x1024_S2x1024x1 : S2x1024.ShapeCasts S2x1024x1
  reduces_S2x512x3_S2x512 : S2x512x3.Reduces [2] S2x512
  shapeCasts_S2x512_S2x1x512 : S2x512.ShapeCasts S2x1x512
  slices_S2x1024x3_o0_0_0_S2x1024x1 : S2x1024x3.Slices ![0, 0, 0] S2x1024x1
  slices_S2x512x3_o0_0_0_S2x512x1 : S2x512x3.Slices ![0, 0, 0] S2x512x1
  shapeCasts_S2x512x1_S2x512 : S2x512x1.ShapeCasts S2x512
  broadcasts_S2x1024x1_S2x1024x512 : S2x1024x1.Broadcasts S2x1024x512
  broadcasts_S2x1x512_S2x1024x512 : S2x1x512.Broadcasts S2x1024x512
  slices_S2x1024x3_o0_0_1_S2x1024x1 : S2x1024x3.Slices ![0, 0, 1] S2x1024x1
  slices_S2x512x3_o0_0_1_S2x512x1 : S2x512x3.Slices ![0, 0, 1] S2x512x1
  slices_S2x1024x3_o0_0_2_S2x1024x1 : S2x1024x3.Slices ![0, 0, 2] S2x1024x1
  slices_S2x512x3_o0_0_2_S2x512x1 : S2x512x3.Slices ![0, 0, 2] S2x512x1
  reduces_S2x1024x512_S2x1024 : S2x1024x512.Reduces [2] S2x1024
  reducesTo_S2x8192_S_d0_1 : S2x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x3.size a ≤ S2x8192x3.size a
  hwx0_0 : ∀ i : grid0.Coords, EltTy.bits .f32 = 32 ∨ (Rect.block (s := S2x8192x3) S2x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x3.size a ≤ S2x8192x3.size a
  hwx0_1 : ∀ i : grid0.Coords, EltTy.bits .f32 = 32 ∨ (Rect.block (s := S2x8192x3) S2x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x8192.size a
  hwx0_2 : ∀ i : grid0.Coords, EltTy.bits .f32 = 32 ∨ (Rect.block (s := S2x8192) S2x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x3.size a ≤ S2x8192x3.size a
  hwx1_0 : ∀ i : grid1.Coords, EltTy.bits .f32 = 32 ∨ (Rect.block (s := S2x8192x3) S2x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x3.size a ≤ S2x8192x3.size a
  hwx1_1 : ∀ i : grid1.Coords, EltTy.bits .f32 = 32 ∨ (Rect.block (s := S2x8192x3) S2x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1024.size a ≤ S2x8192.size a
  hwx1_2 : ∀ i : grid1.Coords, EltTy.bits .f32 = 32 ∨ (Rect.block (s := S2x8192) S2x1024.size (cc1_transform_2 i) (hinb1_2 i)).WholeWords (EltTy.packing .f32)

variable [Facts₀]

abbrev win0_0 : Pipeline.Window sig grid0 :=
  Pipeline.Window.ofSpec (Memref.whole main_v0) S2x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S2x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2x3x8192 : Shape := ⟨3, ![2, 3, 8192]⟩
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 40
  | .vmem => 0
  | .smem => 0
  | _ => 0

abbrev bufTy : (tb : Table) → Fin (tcTables nBuf tb) → BufTy
  | .hbm, ⟨0, _⟩ => ⟨S2x3x8192, .f32⟩
  | .hbm, ⟨1, _⟩ => ⟨S2x3x8192, .f32⟩
  | .hbm, ⟨2, _⟩ => ⟨S2x8192x3, .f32⟩
  | .hbm, ⟨3, _⟩ => ⟨S2x8192x3, .f32⟩
  | .hbm, ⟨4, _⟩ => ⟨S2x8192x3, .f32⟩
  | .hbm, ⟨5, _⟩ => ⟨S_, .f32⟩
  | .hbm, ⟨6, _⟩ => ⟨S2x8192, .f32⟩
  | .hbm, ⟨7, _⟩ => ⟨S2x8192x3, .f32⟩
  | .hbm, ⟨8, _⟩ => ⟨S_, .f32⟩
  | .hbm, ⟨9, _⟩ => ⟨S2x8192, .f32⟩
  | .hbm, ⟨10, _⟩ => ⟨S2x8192x8192, .f32⟩
  | .hbm, ⟨11, _⟩ => ⟨S2x8192x1, .f32⟩
  | .hbm, ⟨12, _⟩ => ⟨S2x1x8192, .f32⟩
  | .hbm, ⟨13, _⟩ => ⟨S2x8192x8192, .f32⟩
  | .hbm, ⟨14, _⟩ => ⟨S2x8192x8192, .f32⟩
  | .hbm, ⟨15, _⟩ => ⟨S2x8192x8192, .f32⟩
  | .hbm, ⟨16, _⟩ => ⟨S_, .f32⟩
  | .hbm, ⟨17, _⟩ => ⟨S2x8192x8192, .f32⟩
  | .hbm, ⟨18, _⟩ => ⟨S2x8192x8192, .f32⟩
  | .hbm, ⟨19, _⟩ => ⟨S2x8192x8192, .f32⟩
  | .hbm, ⟨20, _⟩ => ⟨S_, .f32⟩
  | .hbm, ⟨21, _⟩ => ⟨S2x8192x8192, .f32⟩
  | .hbm, ⟨22, _⟩ => ⟨S2x8192x8192, .f32⟩
  | .hbm, ⟨23, _⟩ => ⟨S_, .f32⟩
  | .hbm, ⟨24, _⟩ => ⟨S2x8192x8192, .f32⟩
  | .hbm, ⟨25, _⟩ => ⟨S2x8192x8192, .f32⟩
  | .hbm, ⟨26, _⟩ => ⟨S2x8192x8192, .f32⟩
  | .hbm, ⟨27, _⟩ => ⟨S_, .f32⟩
  | .hbm, ⟨28, _⟩ => ⟨S2x8192, .f32⟩
  | .hbm, ⟨29, _⟩ => ⟨S_, .f32⟩
  | .hbm, ⟨30, _⟩ => ⟨S2x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  transposes_S2x3x8192_S2x8192x3_0_2_1 : S2x3x8192.Transposes [0, 2, 1] S2x8192x3
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d1 : S2x8192x8192.ReducesTo [1] S2x8192
  reducesTo_S2x8192x8192_S2x8192_d2 : S2x8192x8192.ReducesTo [2] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.KI.Reg0Runs.lean ====
/-
  The first nearest-point kernel (outer points x, inner points y), one grid point at a time.

  The grid is 8 outer blocks of 1024 points by 16 inner tiles of 512 points, point t = 16·o + j. The body keeps a
  running minimum per outer point in a scratch buffer: at the first tile (j = 0) it resets the scratch to +∞, at
  every tile it replaces the scratch by the minimum of itself and the tile's row minima, and at the last tile
  (j = 15) it copies the scratch into the output block. So the body has three control cases — first tile,
  middle tile, last tile — and this module runs the body once per case: the two branch conditions in closed form
  over the grid, where the output window is idle, and per case the body's triple with the pieces it leaves in the
  scratch and in the output buffer.
-/
import proofs.«161768_j87170656240054_1_alg».proof.Proof.Gen.KernelIdeal.Launch
import proofs.«161768_j87170656240054_1_alg».proof.Proof.Gen.KernelIdeal.Skeleton
import proofs.«161768_j87170656240054_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- "This is the first inner tile" (j = 0), as the body computes it from the grid coordinates. -/
abbrev condFirst (i : grid0.Coords) : Prop := (Scalar.cmpi .ne (Scalar.extui (Scalar.cmpi .eq (BitVec.ofNat 32 (i 1).val) 0#32)) 0#32) = 1#1
/-- It holds exactly at the points 16·o. -/
theorem hcondFirst : ∀ t : Fin cfg0.N, condFirst (grid0.coords t) ↔ t.val % 16 = 0 :=
  (by decide +kernel : ∀ t : Fin grid0.N, condFirst (grid0.coords t) ↔ t.val % 16 = 0)

/-- "This is the last inner tile" (j = 15). -/
abbrev condLast (i : grid0.Coords) : Prop := k0_cond2 i = 1#1
/-- It holds exactly at the points 16·o + 15. -/
theorem hcondLast : ∀ t : Fin cfg0.N, condLast (grid0.coords t) ↔ t.val % 16 = 15 :=
  (by decide +kernel : ∀ t : Fin grid0.N, condLast (grid0.coords t) ↔ t.val % 16 = 15)

/-! ## Where the windows are idle -/

/-- The two input windows are never idle. -/
theorem liveAt_0 : ∀ t : Fin cfg0.N, cfg0.idle 0 (grid0.coords t) = false := by decide +kernel
theorem liveAt_1 : ∀ t : Fin cfg0.N, cfg0.idle 1 (grid0.coords t) = false := by decide +kernel
/-- Away from the last tile the body stores nothing into the output block, and the block is not written back. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At the last tile it stores the whole block. -/
theorem liveAt_2 : ∀ t : Fin cfg0.N, condLast (grid0.coords t) → cfg0.idle 2 (grid0.coords t) = false := by decide +kernel

/-! ## The memrefs the body is called with -/

abbrev ms_0 (t : Fin cfg0.N) : Memref sig .tc .vmem S2x1024x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2x512x3 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2x1024 .f32 := win0_2.stage (cfg0.slots t 2)
abbrev hs_2 (t : Fin cfg0.N) : (ms_2 t).IsWhole := hstage0_2 ((cfg0.slots t 2).cast nbuf0_2)
/-- The running-minimum scratch, a whole scoped buffer of the kernel's own. -/
abbrev scM : Memref sig .tc .vmem S2x1024 .f32 := Memref.whole cc0_scratch0
abbrev VS : View sig .tc .vmem S2x1024 .f32 := scM.view
/-- One staging buffer of the output window, through which its contents are stated. -/
abbrev VO : View sig .tc .vmem S2x1024 .f32 := (Memref.whole cc0_stg2_0 : Memref sig .tc .vmem S2x1024 .f32).view

/-! ## The three cases -/

set_option maxHeartbeats 2000000 in
/-- FIRST TILE (j = 0, not the last): the scratch may hold anything; the body resets it to +∞ and then lowers it by the
    tile's row minima; the output buffer is handed back untouched. -/
noncomputable def runFirst (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : condFirst i) (hc1 : ¬condLast i)
    (x0 : Vec F S2x1024x3 .f32) (x1 : Vec F S2x512x3 .f32) :
    Σ' (L2 : List (View.Piece (Elt F) S2x1024 .f32)), { LS : List (View.Piece (Elt F) S2x1024 .f32) //
      ∀ (xi2 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nearest_min_kernel i arg2 harg2 arg3 harg3 arg4 harg4 arg5 harg5) K } := by
  refine ⟨[], ?_, fun xi2 E K => ?run⟩
  case run =>
    simp only [cc0__nearest_min_kernel_eq_skeleton]; unfold cc0__nearest_min_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- MIDDLE TILE (0 < j < 15): the scratch holds what the tile before left (`xs`); the body lowers it by this tile's row
    minima; the output buffer is handed back untouched. -/
noncomputable def runMid (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : ¬condLast i)
    (x0 : Vec F S2x1024x3 .f32) (x1 : Vec F S2x512x3 .f32) (xs : Vec F S2x1024 .f32) :
    Σ' (L2 : List (View.Piece (Elt F) S2x1024 .f32)), { LS : List (View.Piece (Elt F) S2x1024 .f32) //
      ∀ (xi2 : Vec F S2x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nearest_min_kernel i arg2 harg2 arg3 harg3 arg4 harg4 arg5 harg5) K } := by
  refine ⟨[], ?_, fun xi2 E K => ?run⟩
  case run =>
    simp only [cc0__nearest_min_kernel_eq_skeleton]; unfold cc0__nearest_min_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 2000000 in
/-- LAST TILE (j = 15): as a middle tile, and then the body copies the scratch into the output buffer, which may hold
    anything before. -/
noncomputable def runLast (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) :
    Σ' (L2 : List (View.Piece (Elt F) S2x1024 .f32)), { LS : List (View.Piece (Elt F) S2x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__nearest_min_kernel i arg2 harg2 arg3 harg3 arg4 harg4 arg5 harg5) K } := by
  refine ⟨?_, ?_, fun E K => ?run⟩
  case run =>
    simp only [cc0__nearest_min_kernel_eq_skeleton]; unfold cc0__nearest_min_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Reg0

end
-- ==== Proof.KI.Reg0Rest.lean ====
/-
  The scoped buffers of the core that the first kernel does not name — the second kernel's staging buffers and its
  scratch — ride through the first kernel's region untouched, each whole at some contents. This module splits the
  region's class invariant into the first kernel's own scratch, that untouched rest, and the generator register.
-/
import proofs.«161768_j87170656240054_1_alg».proof.Proof.KI.Reg0Runs

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers the kernel does not name, each whole at some contents. -/
def other (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant hands out the kernel's scratch at some contents beside the rest and the generator register. -/
theorem PhiA_split (c : Dev nD) :
    (Pipeline.ΦA spec0 c : sProp 𝕄) ⊢ iprop((∃ d, owns (c : Thread nD τ) scM fullShare d) ∗ other (F := F) c ∗ (∃ r, prngReg c r)) := by
  unfold Pipeline.ΦA other; rw [scopedRest0_eq]; simp only [scM, owns_whole]
  iintro ⟨⟨HS, Hr⟩, Hg⟩
  isplitl [HS]; · iexact HS
  isplitl [Hr]; · iexact Hr
  iexact Hg

/-- And takes them back. -/
theorem PhiA_join (c : Dev nD) :
    iprop((∃ d, owns (c : Thread nD τ) scM fullShare d) ∗ other (F := F) c ∗ (∃ r, prngReg c r)) ⊢ (Pipeline.ΦA spec0 c : sProp 𝕄) := by
  unfold Pipeline.ΦA other; rw [scopedRest0_eq]; simp only [scM, owns_whole]
  iintro ⟨HS, Hr, Hg⟩
  isplitr [Hg]
  · isplitl [HS]; · iexact HS
    iexact Hr
  iexact Hg

end Cert.KernelIdeal.Reg0

end
-- ==== Proof.KI.Reg0Frame.lean ====
/-
  The first nearest-point kernel as a pipeline region: its proof data and its body obligation.

  The running minimum the kernel keeps in its scratch is followed point by point: `accAt n` is what the scratch
  holds after point n — at a first tile the reset followed by one lowering, at any other tile one lowering of what
  the point before left. The region's invariant holds the scratch at exactly that (`PhiS`), beside the scoped
  buffers the kernel does not name and the generator register. The output block is written only at a last tile,
  from the scratch (`outAt`); at the other points the window is idle and its buffer is handed back untouched.
  The body obligation is the case's run at each point, chosen by t mod 16.
-/
import proofs.«161768_j87170656240054_1_alg».proof.Proof.KI.Reg0Rest

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the block
    index has not moved since the last fetch). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The first tile's stores into the scratch cover it. -/
theorem scoverFirst (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : condFirst i) (hc1 : ¬condLast i)
    (x0 : Vec F S2x1024x3 .f32) (x1 : Vec F S2x512x3 .f32) (y : S2x1024.Idx) :
    ∃ pc ∈ (runFirst c i arg2 harg2 arg3 harg3 arg4 harg4 arg5 harg5 hc0 hc1 x0 x1).2.1, y ∈ pc.1.set :=
  View.cover_of_tiledL (runFirst c i arg2 harg2 arg3 harg3 arg4 harg4 arg5 harg5 hc0 hc1 x0 x1).2.1 S2x1024.size (by sl_kernel_rfl) y
/-- What the first tile leaves in the scratch. -/
def accFirst (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : condFirst i) (hc1 : ¬condLast i)
    (x0 : Vec F S2x1024x3 .f32) (x1 : Vec F S2x512x3 .f32) : Vec F S2x1024 .f32 :=
  VS.read (Elt F) (VS.writes (Elt F) VS.junk (runFirst c i arg2 harg2 arg3 harg3 arg4 harg4 arg5 harg5 hc0 hc1 x0 x1).2.1)

/-- A middle tile's store into the scratch covers it. -/
theorem scoverMid (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : ¬condLast i)
    (x0 : Vec F S2x1024x3 .f32) (x1 : Vec F S2x512x3 .f32) (xs : Vec F S2x1024 .f32) (y : S2x1024.Idx) :
    ∃ pc ∈ (runMid c i arg2 harg2 arg3 harg3 arg4 harg4 arg5 harg5 hc0 hc1 x0 x1 xs).2.1, y ∈ pc.1.set :=
  View.cover_of_tiledL (runMid c i arg2 harg2 arg3 harg3 arg4 harg4 arg5 harg5 hc0 hc1 x0 x1 xs).2.1 S2x1024.size (by sl_kernel_rfl) y
/-- What a middle tile leaves in the scratch, over what the tile before left. -/
def accMid (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : ¬condLast i)
    (x0 : Vec F S2x1024x3 .f32) (x1 : Vec F S2x512x3 .f32) (xs : Vec F S2x1024 .f32) : Vec F S2x1024 .f32 :=
  VS.read (Elt F) (VS.writes (Elt F) VS.junk (runMid c i arg2 harg2 arg3 harg3 arg4 harg4 arg5 harg5 hc0 hc1 x0 x1 xs).2.1)

/-- The last tile's store into the scratch covers it, -/
theorem scoverLast (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) (y : S2x1024.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S2x1024.size (by sl_kernel_rfl) y
/-- and its store into the output block covers that. -/
theorem coverLast (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) (y : S2x1024.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S2x1024.size (by sl_kernel_rfl) y
/-- What the last tile leaves in the scratch, -/
def accLast (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) : Vec F S2x1024 .f32 :=
  VS.read (Elt F) (VS.writes (Elt F) VS.junk (runLast c i arg2 harg2 arg3 harg3 arg4 harg4 arg5 harg5 hc0 hc1 x0 x1 xs).2.1)
/-- and in the output block. -/
def outLast (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) : Vec F S2x1024 .f32 :=
  VO.read (Elt F) (VO.writes (Elt F) VO.junk (runLast c i arg2 harg2 arg3 harg3 arg4 harg4 arg5 harg5 hc0 hc1 x0 x1 xs).1)

/-! ## The cases at a grid point -/

theorem notLast_of_first (t : Fin cfg0.N) (h0 : t.val % 16 = 0) : ¬condLast (grid0.coords t) :=
  fun h => by have := (hcondLast t).mp h; omega
theorem notFirst_of_last (t : Fin cfg0.N) (h1 : t.val % 16 = 15) : ¬condFirst (grid0.coords t) :=
  fun h => by have := (hcondFirst t).mp h; omega

def accFirstAt (c : Dev nD) (t : Fin cfg0.N) (h0 : t.val % 16 = 0) : Vec F S2x1024 .f32 :=
  accFirst c (grid0.coords t) (ms_0 t) (hs_0 t) (ms_1 t) (hs_1 t) (ms_2 t) (hs_2 t) scM (Memref.isWhole_whole _) ((hcondFirst t).mpr h0) (notLast_of_first t h0) (iblk V c 0 t) (iblk V c 1 t)
def accMidAt (c : Dev nD) (t : Fin cfg0.N) (h0 : ¬t.val % 16 = 0) (h1 : ¬t.val % 16 = 15) (xs : Vec F S2x1024 .f32) : Vec F S2x1024 .f32 :=
  accMid c (grid0.coords t) (ms_0 t) (hs_0 t) (ms_1 t) (hs_1 t) (ms_2 t) (hs_2 t) scM (Memref.isWhole_whole _) (fun h => h0 ((hcondFirst t).mp h)) (fun h => h1 ((hcondLast t).mp h)) (iblk V c 0 t) (iblk V c 1 t) xs
def accLastAt (c : Dev nD) (t : Fin cfg0.N) (h1 : t.val % 16 = 15) (xs : Vec F S2x1024 .f32) : Vec F S2x1024 .f32 :=
  accLast c (grid0.coords t) (ms_0 t) (hs_0 t) (ms_1 t) (hs_1 t) (ms_2 t) (hs_2 t) scM (Memref.isWhole_whole _) (notFirst_of_last t h1) ((hcondLast t).mpr h1) (iblk V c 0 t) (iblk V c 1 t) xs
def outLastAt (c : Dev nD) (t : Fin cfg0.N) (h1 : t.val % 16 = 15) (xs : Vec F S2x1024 .f32) : Vec F S2x1024 .f32 :=
  outLast c (grid0.coords t) (ms_0 t) (hs_0 t) (ms_1 t) (hs_1 t) (ms_2 t) (hs_2 t) scM (Memref.isWhole_whole _) (notFirst_of_last t h1) ((hcondLast t).mpr h1) (iblk V c 0 t) (iblk V c 1 t) xs

/-! ## The running minimum, point by point -/

/-- What the scratch holds after point `n`. -/
def accAt (c : Dev nD) : (n : ℕ) → n < cfg0.N → Vec F S2x1024 .f32
  | 0, hn => accFirstAt V c ⟨0, hn⟩ (Nat.zero_mod _)
  | n + 1, hn =>
    if h0 : (n + 1) % 16 = 0 then accFirstAt V c ⟨n + 1, hn⟩ h0
    else if h1 : (n + 1) % 16 = 15 then accLastAt V c ⟨n + 1, hn⟩ h1 (accAt c n (Nat.lt_of_succ_lt hn))
    else accMidAt V c ⟨n + 1, hn⟩ h0 h1 (accAt c n (Nat.lt_of_succ_lt hn))

theorem accAt_first (c : Dev nD) (t : Fin cfg0.N) (h0 : t.val % 16 = 0) : accAt V c t.val t.isLt = accFirstAt V c t h0 := by
  obtain ⟨n, hn⟩ := t
  cases n with
  | zero => rfl
  | succ n => exact dif_pos h0

theorem accAt_mid (c : Dev nD) (t : Fin cfg0.N) (h0 : ¬t.val % 16 = 0) (h1 : ¬t.val % 16 = 15) :
    accAt V c t.val t.isLt = accMidAt V c t h0 h1 (accAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem accAt_last (c : Dev nD) (t : Fin cfg0.N) (h1 : t.val % 16 = 15) :
    accAt V c t.val t.isLt = accLastAt V c t h1 (accAt V c (t.val - 1) (Nat.lt_of_le_of_lt (Nat.sub_le _ _) t.isLt)) := by
  obtain ⟨n, hn⟩ := t
  cases n with
  | zero => exact absurd h1 (by show ¬(0 % 16 = 15); decide)
  | succ n =>
    have h1' : (n + 1) % 16 = 15 := h1
    exact (dif_neg (by omega)).trans (dif_pos h1')

/-- What the output block's buffer holds after point `t`: at a last tile the scratch copied out; elsewhere nothing is
    stored (a placeholder nothing consults: the window is idle there and not written back). -/
def outAt (c : Dev nD) (t : Fin cfg0.N) : Vec F S2x1024 .f32 :=
  if h1 : t.val % 16 = 15 then outLastAt V c t h1 (accAt V c (t.val - 1) (Nat.lt_of_le_of_lt (Nat.sub_le _ _) t.isLt))
  else VO.read (Elt F) VO.junk

theorem outAt_last (c : Dev nD) (t : Fin cfg0.N) (h1 : t.val % 16 = 15) :
    outAt V c t = outLastAt V c t h1 (accAt V c (t.val - 1) (Nat.lt_of_le_of_lt (Nat.sub_le _ _) t.isLt)) := dif_pos h1

/-! ## The invariant -/

/-- Before the first point the class invariant (the scratch at anything); afterwards the scratch at what the point before
    left, the untouched rest and the generator register. -/
def PhiS (c : Dev nD) : (n : ℕ) → n ≤ cfg0.N → sProp 𝕄
  | 0, _ => Pipeline.ΦA spec0 c
  | n + 1, hn => iprop(owns (c : Thread nD τ) scM fullShare (accAt V c n hn) ∗ other (F := F) c ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (accAt V c n hn) ∗ other (F := F) c ∗ (∃ r, prngReg c r)) := rfl
theorem PhiS_pos (c : Dev nD) (n : ℕ) (h : n ≤ cfg0.N) (hz : n ≠ 0) :
    PhiS V c n h = iprop(owns (c : Thread nD τ) scM fullShare (accAt V c (n - 1) (by omega)) ∗ other (F := F) c ∗ (∃ r, prngReg c r)) := by
  cases n with
  | zero => exact absurd rfl hz
  | succ n => rfl

/-! ## The proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outAt V c t := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' buffers hold their blocks; t mod 16 says which case the point is in; the invariant
    hands the body its scratch at what the point before left (at anything before the first point) and takes it back at this
    point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  have hN : t.val < 128 := lt_of_lt_of_eq t.isLt (show cfg0.N = 128 from N_0)
  by_cases h0 : t.val % 16 = 0
  · have h1 : ¬t.val % 16 = 15 := by omega
    rw [Dat.leavesExact_idle (dat V c) 2 t (idleAt_2 t (fun h => h1 ((hcondLast t).mp h))) (noFlush_2 t (fun h => h1 ((hcondLast t).mp h)))]
    rw [accAt_first V c t h0]
    unfold accFirstAt accFirst; (try dsimp only)
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨HS, Hr, Hg⟩
      iapply ((runFirst c (grid0.coords t) (ms_0 t) (hs_0 t) (ms_1 t) (hs_1 t) (ms_2 t) (hs_2 t) scM (Memref.isWhole_whole _) ((hcondFirst t).mpr h0) (notLast_of_first t h0) (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro; exact View.read_writes_of_cover _ _ _ _ _ (scoverFirst c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS_castSucc V c t, PhiS_pos V c _ _ hz]
      iintro ⟨⟨HS, Hr, Hg⟩, Ho, ⟨%d0, H0⟩, ⟨%d1, H1⟩, ⟨%d2, H2⟩⟩
      iapply ((runFirst c (grid0.coords t) (ms_0 t) (hs_0 t) (ms_1 t) (hs_1 t) (ms_2 t) (hs_2 t) scM (Memref.isWhole_whole _) ((hcondFirst t).mpr h0) (notLast_of_first t h0) (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hr Hg]
      · isplitl [HS]
        · unfold owns; iexists _; isplitr
          swap; · iexact HS
          ipureintro; exact View.read_writes_of_cover _ _ _ _ _ (scoverFirst c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat V c).leavesExact 2 t = owns (c : Thread nD τ) (ms_2 t) fullShare ((dat V c).after 2 t) from by
        unfold Dat.leavesExact; rw [liveAt_2 t ((hcondLast t).mpr h1)], after_2]
      rw [accAt_last V c t h1, outAt_last V c t h1]
      unfold accLastAt accLast outLastAt outLast; (try dsimp only)
      rw [PhiS_castSucc V c t, PhiS_pos V c _ _ hz]
      iintro ⟨⟨HS, Hr, Hg⟩, Ho, ⟨%d0, H0⟩, ⟨%d1, H1⟩, ⟨%d2, H2⟩⟩
      iapply ((runLast c (grid0.coords t) (ms_0 t) (hs_0 t) (ms_1 t) (hs_1 t) (ms_2 t) (hs_2 t) scM (Memref.isWhole_whole _) (notFirst_of_last t h1) ((hcondLast t).mpr h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr Hg]
      · isplitl [HS]
        · unfold owns; iexists _; isplitr
          swap; · iexact HS
          ipureintro; exact View.read_writes_of_cover _ _ _ _ _ (scoverLast c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _)
    · rw [Dat.leavesExact_idle (dat V c) 2 t (idleAt_2 t (fun h => h1 ((hcondLast t).mp h))) (noFlush_2 t (fun h => h1 ((hcondLast t).mp h)))]
      rw [accAt_mid V c t h0 h1]
      unfold accMidAt accMid; (try dsimp only)
      rw [PhiS_castSucc V c t, PhiS_pos V c _ _ hz]
      iintro ⟨⟨HS, Hr, Hg⟩, Ho, ⟨%d0, H0⟩, ⟨%d1, H1⟩, ⟨%d2, H2⟩⟩
      iapply ((runMid c (grid0.coords t) (ms_0 t) (hs_0 t) (ms_1 t) (hs_1 t) (ms_2 t) (hs_2 t) scM (Memref.isWhole_whole _) (fun h => h0 ((hcondFirst t).mp h)) (fun h => h1 ((hcondLast t).mp h)) (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hr Hg]
      · isplitl [HS]
        · unfold owns; iexists _; isplitr
          swap; · iexact HS
          ipureintro; exact View.read_writes_of_cover _ _ _ _ _ (scoverMid c _ _ _ _ _ _ _ _ _ _ _ _ _ _)
        isplitl [Hr]; · iexact Hr
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]

/-- After the last point the invariant gives the class invariant back: the scratch's contents are forgotten. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 128 := N_0; omega)]
  iintro ⟨HS, Hr, Hg⟩
  iapply (PhiA_join (F := F) c)
  isplitl [HS]; · iexists _; iexact HS
  isplitl [Hr]; · iexact Hr
  iexact Hg

end Region

end Cert.KernelIdeal.Reg0

end
-- ==== Proof.KI.Reg1Rest.lean ====
/-
  The scoped buffers of the core that the second kernel does not name — the first kernel's staging buffers and its
  scratch — ride through the second kernel's region untouched, each whole at some contents. This module splits the
  region's class invariant into the second kernel's own scratch, that untouched rest, and the generator register.
-/
import proofs.«161768_j87170656240054_1_alg».proof.Proof.KI.Reg1Runs

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The scoped buffers the kernel does not name, each whole at some contents. -/
def other (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant hands out the kernel's scratch at some contents beside the rest and the generator register. -/
theorem PhiA_split (c : Dev nD) :
    (Pipeline.ΦA spec1 c : sProp 𝕄) ⊢ iprop((∃ d, owns (c : Thread nD τ) scM fullShare d) ∗ other (F := F) c ∗ (∃ r, prngReg c r)) := by
  unfold Pipeline.ΦA other; rw [scopedRest1_eq]; simp only [scM, owns_whole]
  iintro ⟨⟨H1, H2, H3, H4, H5, H6, H7, HS⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- And takes them back. -/
theorem PhiA_join (c : Dev nD) :
    iprop((∃ d, owns (c : Thread nD τ) scM fullShare d) ∗ other (F := F) c ∗ (∃ r, prngReg c r)) ⊢ (Pipeline.ΦA spec1 c : sProp 𝕄) := by
  unfold Pipeline.ΦA other; rw [scopedRest1_eq]; simp only [scM, owns_whole]
  iintro ⟨HS, ⟨H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Reg1

end
-- ==== Proof.KI.Run.lean ====
/-
  The whole program as a run: the two transposes, the two nearest-point kernels one after the other, and the closing
  means, from the launch to the return.

  Between two items of @main every unscoped buffer of the core is held at a named valuation: the launch memory, then
  the transposes applied, then the first kernel's output array at what its write-backs leave, then the second kernel's,
  then the closing host operations applied. Every execution terminates and the final memory is the last valuation
  (`run_all`); no item writes an argument array, so both end as launched (`frame`).
-/
import proofs.«161768_j87170656240054_1_alg».proof.Proof.KI.Reg0Frame
import proofs.«161768_j87170656240054_1_alg».proof.Proof.KI.Reg1Frame
import Idealize.ShloMosaic.Lib.Pipeline.RegionsLoop
import Idealize.ShloMosaic.Lib.Pipeline.FrameSuffix

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => (s₀ m ρ).mem ((c : Dev nD), b)
/-- After the two transposes (the first kernel's entry). -/
abbrev U1 : Dev nD → Valuation τ sig (Elt F) := fun c => StableHlo.after hostOps0 (U0 m ρ c)
abbrev A1 : (c : Dev nD) → (b : Ref sig .tc) → Buf (Elt F) ((c : Thread nD τ).loc b) := fun c b => U1 m ρ c b
/-- At the first kernel's exit: its arrays at what the pipeline leaves, every other buffer as entered. -/
def U2 (c : Dev nD) : Valuation τ sig (Elt F) :=
  Pipeline.withArrays spec0 c (U1 m ρ c) fun w => (Reg0.dat (A1 m ρ) c).arrAt w cfg0.N
theorem U2_arr (c : Dev nD) (w : Fin cfg0.W) :
    U2 m ρ c (Proc.devRef .tc (Pipeline.arrRef spec0 w)) = (Reg0.dat (A1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
abbrev A2 : (c : Dev nD) → (b : Ref sig .tc) → Buf (Elt F) ((c : Thread nD τ).loc b) := fun c b => U2 m ρ c b
theorem hF0 (c : Dev nD) (w : Fin cfg0.W) : (Reg0.dat (A1 m ρ) c).arrAt w cfg0.N = A2 m ρ c (Pipeline.arrRef spec0 w) :=
  (U2_arr m ρ c w).symm
theorem hrest0 (c : Dev nD) : ∀ b, b ∉ Finset.univ.image (Pipeline.arrRef spec0) → A2 m ρ c b = A1 m ρ c b :=
  fun b hb => U2_of_ne m ρ c b fun w e => hb (Finset.mem_image.mpr ⟨w, Finset.mem_univ _, e⟩)

/-- At the second kernel's exit (it is entered from the first kernel's exit: no host operation between them). -/
def U3 (c : Dev nD) : Valuation τ sig (Elt F) :=
  Pipeline.withArrays spec1 c (U2 m ρ c) fun w => (Reg1.dat (A2 m ρ) c).arrAt w cfg1.N
theorem U3_arr (c : Dev nD) (w : Fin cfg1.W) :
    U3 m ρ c (Proc.devRef .tc (Pipeline.arrRef spec1 w)) = (Reg1.dat (A2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
abbrev A3 : (c : Dev nD) → (b : Ref sig .tc) → Buf (Elt F) ((c : Thread nD τ).loc b) := fun c b => U3 m ρ c b
theorem hF1 (c : Dev nD) (w : Fin cfg1.W) : (Reg1.dat (A2 m ρ) c).arrAt w cfg1.N = A3 m ρ c (Pipeline.arrRef spec1 w) :=
  (U3_arr m ρ c w).symm
theorem hrest1 (c : Dev nD) : ∀ b, b ∉ Finset.univ.image (Pipeline.arrRef spec1) → A3 m ρ c b = A2 m ρ c b :=
  fun b hb => U3_of_ne m ρ c b fun w e => hb (Finset.mem_image.mpr ⟨w, Finset.mem_univ _, e⟩)

/-- After the closing host operations: the return. -/
abbrev U4 : Dev nD → Valuation τ sig (Elt F) := fun c => StableHlo.after hostOps2 (U3 m ρ c)

/-! ## The arguments end as launched: no host operation writes one and neither kernel's windows name one -/

theorem U4_main_arg0 (c : Dev nD) : U4 m ρ c (Proc.devRef .tc main_arg0) = m ((c : Thread nD τ).loc main_arg0) :=
  calc U4 m ρ c (Proc.devRef .tc main_arg0)
    _ = U3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U2 m ρ c (Proc.devRef .tc main_arg0) := U3_of_ne m ρ c main_arg0 (by decide)
    _ = U1 m ρ c (Proc.devRef .tc main_arg0) := U2_of_ne m ρ c main_arg0 (by decide)
    _ = U0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem U4_main_arg1 (c : Dev nD) : U4 m ρ c (Proc.devRef .tc main_arg1) = m ((c : Thread nD τ).loc main_arg1) :=
  calc U4 m ρ c (Proc.devRef .tc main_arg1)
    _ = U3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = U2 m ρ c (Proc.devRef .tc main_arg1) := U3_of_ne m ρ c main_arg1 (by decide)
    _ = U1 m ρ c (Proc.devRef .tc main_arg1) := U2_of_ne m ρ c main_arg1 (by decide)
    _ = U0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Both kernels' proof data, each at its region's entry contents. -/
def pdats : (p : Fin 2) → (c : Dev nD) → Dat τ (Elt F) Unit ℕ (UR sig nD τ) ℕ (Pipeline.pin (pcfgs (F := F)) adm p) c
  | ⟨0, _⟩ => fun c => Reg0.dat (A1 m ρ) c
  | ⟨1, _⟩ => fun c => Reg1.dat (A2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (U4 m ρ c) ∗ ∃ r, prngReg c r)

/-! ## The two kernels as segments -/

/-- The class invariant gives back the generator register and the scoped buffers no window stages. -/
theorem PhiA_out0 (c : Dev nD) :
    (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr
theorem PhiA_out1 (c : Dev nD) :
    (Pipeline.ΦA spec1 c : sProp 𝕄) ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- REGION 0: entered from every unscoped buffer at `U1`, left at `U2`. Its arrays are split out of the unscoped
    buffers and put back at what the write-backs leave; the generator register goes into the invariant and comes back;
    the kernel's scratch is named by the invariant between the points and forgotten at the exit; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (A1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (A1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (A1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (Reg0.dat (A1 m ρ) c).Φ (Fin.last cfg0.N) from rfl]
    exact (Reg0.hout (A1 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (A1 m ρ c) (A2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `U2`, left at `U3`. Its arrays are split out of the unscoped
    buffers and put back at what the write-backs leave; the generator register goes into the invariant and comes back;
    the kernel's scratch is named by the invariant between the points and forgotten at the exit; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (A2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(StableHlo.held (c : Thread nD τ) (Pipeline.ucRefs τ sig) (U3 m ρ c) ∗ R c)
  X c := iprop(∃ r, prngReg c r)
  Y c := iprop(∃ r, prngReg c r)
  Z c := Pipeline.unscopedRest (Ix := Unit) (Name := ℕ) (U := UR sig nD τ) (Lvl := ℕ) spec1 c (A2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (A2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (Reg1.dat (A2 m ρ) c).Φ (Fin.last cfg1.N) from rfl]
    exact (Reg1.hout (A2 m ρ) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (A2 m ρ c) (A3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (U0 m ρ)),
    .region (reg0 m ρ),
    .region (reg1 m ρ),
    .host (hseg hostOps2 hostOps2_sub hostOps2_fresh' (U3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl, fun c => (show iprop(StableHlo.held (c : Thread nD τ) (Pipeline.ucRefs τ sig) (U4 m ρ c) ∗ R c)
        ⊢ iprop(Tₙ m ρ c ∗ ∃ W, owes (c : Thread nD τ) (0 : CellTallies nD τ sig Unit) W) from by
      iintro ⟨Hh, Hp, Ho⟩
      isplitr [Ho]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c => h c)

/-- THE FRAME: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (U4_main_arg0 m ρ c),
     (h c _ (mem_uc main_arg1 (by decide))).trans (U4_main_arg1 m ρ c)⟩) (run_all m ρ)

end Cert.KernelIdeal.Whole

end
-- ==== Proof.KI.Reg0Pieces.lean ====
/-
  What each case of the first kernel's body leaves, as values.

  The scratch after a first tile is one lowering of the reset value; after any other tile it is one lowering of what
  it held before; and the output block at a last tile is the scratch as just stored. "One lowering" is the body's
  own arithmetic (the skeleton's payloads) of the outer block `x0`, the inner tile `x1` and the previous contents.
-/
import proofs.«161768_j87170656240054_1_alg».proof.Proof.KI.Reg0Frame
import Idealize.ShloMosaic.Lib.Pipeline.Value

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz : (![0, 0] : Fin 2 → Nat) = fun _ => 0 := funext fun a => by fin_cases a <;> rfl
theorem hz3 : (![0, 0, 0] : Fin 3 → Nat) = fun _ => 0 := funext fun a => by fin_cases a <;> rfl

/-- One lowering of the running minimum `xs` by the tile `x1` against the outer block `x0`. -/
abbrev lower (x0 : Vec F S2x1024x3 .f32) (x1 : Vec F S2x512x3 .f32) (xs : Vec F S2x1024 .f32) : Vec F S2x1024 .f32 :=
  k0_pay1 (k0_pay3 x0 x1) (Scalar.ofBits .f32 0x322BCC77#32) xs

theorem accMid_eq (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : ¬condLast i)
    (x0 : Vec F S2x1024x3 .f32) (x1 : Vec F S2x512x3 .f32) (xs : Vec F S2x1024 .f32) :
    accMid c i arg2 harg2 arg3 harg3 arg4 harg4 arg5 harg5 hc0 hc1 x0 x1 xs = lower x0 x1 xs := by
  unfold accMid
  rw [View.read_writes_eq_canon _ _ _ (scoverMid c i arg2 harg2 arg3 harg3 arg4 harg4 arg5 harg5 hc0 hc1 x0 x1 xs)]
  unfold runMid
  dsimp only
  sl_unfold_words
  rw [View.canon_unit_zero hz]
  simp only [View.readAt_eq_ld, harg2.read_unread, harg3.read_unread, harg5.read_unread, View.ld_unit_zero (S := S2x1024x3) hz3, View.ld_unit_zero (S := S2x512x3) hz3, View.ld_unit_zero (S := S2x1024) hz]

theorem accFirst_eq (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : condFirst i) (hc1 : ¬condLast i)
    (x0 : Vec F S2x1024x3 .f32) (x1 : Vec F S2x512x3 .f32) :
    accFirst c i arg2 harg2 arg3 harg3 arg4 harg4 arg5 harg5 hc0 hc1 x0 x1 = lower x0 x1 (k0_pay2 (F := F)) := by
  unfold accFirst
  rw [View.read_writes_eq_canon _ _ _ (scoverFirst c i arg2 harg2 arg3 harg3 arg4 harg4 arg5 harg5 hc0 hc1 x0 x1)]
  unfold runFirst
  dsimp only
  sl_unfold_words
  rw [View.canon_cons_unit_zero (S := S2x1024) hz, View.readCov_unit_zero (S := S2x1024) _ hz]
  simp only [View.readAt_eq_ld, harg2.read_unread, harg3.read_unread, harg5.read_unread, View.ld_unit_zero (S := S2x1024x3) hz3, View.ld_unit_zero (S := S2x512x3) hz3, View.ld_unit_zero (S := S2x1024) hz]

theorem accLast_eq (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) :
    accLast c i arg2 harg2 arg3 harg3 arg4 harg4 arg5 harg5 hc0 hc1 x0 x1 xs = lower x0 x1 xs := by
  unfold accLast
  rw [View.read_writes_eq_canon _ _ _ (scoverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.ld_unit_zero (S := S2x1024x3) hz3, View.ld_unit_zero (S := S2x512x3) hz3, View.ld_unit_zero (S := S2x1024) hz]

theorem outLast_eq (c : Dev nD) (i : grid0.Coords) (arg2 : Memref sig .tc .vmem S2x1024x3 .f32) (harg2 : arg2.IsWhole) (arg3 : Memref sig .tc .vmem S2x512x3 .f32) (harg3 : arg3.IsWhole) (arg4 : Memref sig .tc .vmem S2x1024 .f32) (harg4 : arg4.IsWhole) (arg5 : Memref sig .tc .vmem S2x1024 .f32) (harg5 : arg5.IsWhole) (hc0 : ¬condFirst i) (hc1 : condLast i)
    (x0 : Vec F S2x1024x3 .f32) (x1 : Vec F S2x512x3 .f32) (xs : Vec F S2x1024 .f32) :
    outLast c i arg2 harg2 arg3 harg3 arg4 harg4 arg5 harg5 hc0 hc1 x0 x1 xs = lower x0 x1 xs := by
  unfold outLast
  rw [View.read_writes_eq_canon _ _ _ (coverLast c i arg2 harg2 arg3 harg3 arg4 harg4 arg5 harg5 hc0 hc1 x0 x1 xs)]
  unfold runLast
  dsimp only
  sl_unfold_words
  rw [View.canon_unit_zero hz]
  simp only [View.readAt_eq_ld, harg2.read_unread, harg3.read_unread, harg5.read_unread, View.readCov_unit_zero (S := S2x1024) _ hz, View.ld_unit_zero (S := S2x1024x3) hz3, View.ld_unit_zero (S := S2x512x3) hz3, View.ld_unit_zero (S := S2x1024) hz]

end Cert.KernelIdeal.Reg0

end
-- ==== Proof.Spec.lean ====
/-
  The mathematics both programs compute, stated once over the extended reals.

  For two clouds `x`, `y` of 8192 points of ℝ³ in each of 2 batches (arrays [batch, point, coordinate]) the smoothed
  distance between point `p` of `x` and point `q` of `y` is
      dist x y b p q = √(ε + max (‖x_p‖² + ‖y_q‖² − 2·⟨x_p, y_q⟩) 0),
  the inner product written as the three products added left to right. It is symmetric in the two points
  (`dist_symm`: only commutativity of + and · on the extended reals, which holds at the infinities too), and
  `nearest x y b p` is its minimum over `q`, characterised by its universal property (`le_nearest_iff`).
-/
import Idealize.ShloMosaic.PureOps.Ideal
import Idealize.ShloMosaic.Lib.ValueIdx

noncomputable section

open scoped BigOperators

namespace Cert.Nearest

open Idealize.ShloMosaic Idealize.ShloMosaic.ValueIdx

/-- A batch of point clouds: [batch, point, coordinate]. -/
abbrev Pts : Shape := ⟨3, ![2, 8192, 3]⟩
/-- One value per point: [batch, point]. -/
abbrev Rows : Shape := ⟨2, ![2, 8192]⟩

/-- The smoothing constant ε (the f32 nearest 1e-8), the factor 2 and the clamp 0, as the bit patterns both programs carry. -/
abbrev eps : EReal := Ideal.ofBits .f32 0x322BCC77#32
abbrev two : EReal := Ideal.ofBits .f32 0x40000000#32
abbrev zero : EReal := Ideal.ofBits .f32 0x00000000#32

/-- ‖x_p‖² as the sum of the three squares. -/
def sq (x : Pts.Idx → EReal) (b : Fin 2) (p : Fin 8192) : EReal :=
  ∑ d : Fin 3, x (ix3 b p d) * x (ix3 b p d)

/-- ⟨x_p, y_q⟩, the three products added left to right. -/
def inner (x y : Pts.Idx → EReal) (b : Fin 2) (p q : Fin 8192) : EReal :=
  (x (ix3 b p 0) * y (ix3 b q 0) + x (ix3 b p 1) * y (ix3 b q 1)) + x (ix3 b p 2) * y (ix3 b q 2)

/-- The smoothed distance between point `p` of `x` and point `q` of `y`. -/
def dist (x y : Pts.Idx → EReal) (b : Fin 2) (p q : Fin 8192) : EReal :=
  Ideal.sqrt (eps + max ((sq x b p + sq y b q) - two * inner x y b p q) zero)

theorem inner_symm (x y : Pts.Idx → EReal) (b : Fin 2) (p q : Fin 8192) : inner x y b p q = inner y x b q p := by
  unfold inner; simp only [mul_comm]

/-- The distance does not depend on which point is called the first. -/
theorem dist_symm (x y : Pts.Idx → EReal) (b : Fin 2) (p q : Fin 8192) : dist x y b p q = dist y x b q p := by
  unfold dist; rw [inner_symm x y b p q, add_comm (sq x b p) (sq y b q)]

/-- The distance from point `p` of `x` to the nearest point of `y`. -/
def nearest (x y : Pts.Idx → EReal) (b : Fin 2) (p : Fin 8192) : EReal :=
  (Finset.univ : Finset (Fin 8192)).fold min ⊤ (fun q => dist x y b p q)

/-- The minimum's universal property: a bound is below it iff it is below every distance. -/
theorem le_nearest_iff (x y : Pts.Idx → EReal) (b : Fin 2) (p : Fin 8192) (c : EReal) :
    c ≤ nearest x y b p ↔ ∀ q : Fin 8192, c ≤ dist x y b p q := by
  unfold nearest
  rw [Finset.le_fold_min]
  exact ⟨fun h q => h.2 q (Finset.mem_univ _), fun h => ⟨le_top, fun q _ => h q⟩⟩

/-- Two extended reals with the same lower bounds are equal. -/
theorem eq_of_forall_le_iff' {a b : EReal} (h : ∀ c, c ≤ a ↔ c ≤ b) : a = b :=
  le_antisymm ((h a).mp le_rfl) ((h b).mpr le_rfl)

/-- The same minimum taken over the first point of the symmetric distance. -/
theorem nearest_eq_fold_symm (x y : Pts.Idx → EReal) (b : Fin 2) (p : Fin 8192) :
    nearest x y b p = (Finset.univ : Finset (Fin 8192)).fold min ⊤ (fun q => dist y x b q p) := by
  unfold nearest; simp only [dist_symm x y b p]

/-- The nearest distances as an array [batch, point]. -/
def nearestArr (x y : Pts.Idx → EReal) : Rows.Idx → EReal := fun j => nearest x y (j 0) (j 1)

theorem nearestArr_apply (x y : Pts.Idx → EReal) (b : Fin 2) (p : Fin 8192) :
    nearestArr x y (ix2 b p) = nearest x y b p := rfl

/-- The three-term sum of squares spelt out. -/
theorem sq_eq (x : Pts.Idx → EReal) (b : Fin 2) (p : Fin 8192) :
    sq x b p = x (ix3 b p 0) * x (ix3 b p 0) + x (ix3 b p 1) * x (ix3 b p 1) + x (ix3 b p 2) * x (ix3 b p 2) := by
  unfold sq; rw [Fin.sum_univ_three]

/-- The inner product as a sum over the coordinate. -/
theorem inner_eq_sum (x y : Pts.Idx → EReal) (b : Fin 2) (p q : Fin 8192) :
    inner x y b p q = ∑ d : Fin 3, x (ix3 b p d) * y (ix3 b q d) := by
  unfold inner; rw [Fin.sum_univ_three]

/-! ## The distance as a function of the two points' coordinate triples -/

/-- The smoothed distance between two points of ℝ³ given by their coordinates. -/
def distOf (u v : Fin 3 → EReal) : EReal :=
  Ideal.sqrt (eps + max (((∑ d : Fin 3, u d * u d) + (∑ d : Fin 3, v d * v d)) - two * ((u 0 * v 0 + u 1 * v 1) + u 2 * v 2)) zero)

/-- `dist` is `distOf` of the two points' coordinates. -/
theorem dist_eq_distOf (x y : Pts.Idx → EReal) (b : Fin 2) (p q : Fin 8192) :
    dist x y b p q = distOf (fun d => x (ix3 b p d)) (fun d => y (ix3 b q d)) := rfl

/-! ## The two ends of the programs: the transposes going in, the means coming out -/

/-- A scalar. -/
abbrev Sc : Shape := ⟨0, ![]⟩
/-- The clouds as the programs receive them: [batch, coordinate, point]. -/
abbrev Raw : Shape := ⟨3, ![2, 3, 8192]⟩

/-- The clouds with the point axis before the coordinate axis. -/
def pts (h : Raw.Transposes [0, 2, 1] Pts) (a : FVec Ideal Raw .f32) : FVec Ideal Pts .f32 :=
  transpose Pts [0, 2, 1] a h

/-- What both programs end with: the mean of `u` plus the mean of `v`, each mean the sum from 0 divided by 16384, as the
    host operations spell it. It is carried as one function of the two arrays and never opened. -/
def meanSum (h : Rows.ReducesTo [0, 1] Sc) (h0 : 0 < Sc.numel) (u v : FVec Ideal Rows .f32) : FVec Ideal Sc .f32 :=
  addf (Host.divf (Host.reduceAdd u (constant Sc .f32 0x00000000#32) h h0) (constant Sc .f32 0x46800000#32))
    (Host.divf (Host.reduceAdd v (constant Sc .f32 0x00000000#32) h h0) (constant Sc .f32 0x46800000#32))

end Cert.Nearest

end
-- ==== Proof.KI.Reg0Pay.lean ====
/-
  The first kernel's arithmetic read at one entry of the running-minimum block.

  With `o` the block of 1024 outer points and `i` the tile of 512 inner points, the body lowers the running minimum
  `acc` at outer point p of batch b to min (acc, min over the tile's q of the smoothed distance between o_p and i_q);
  the reset value is +∞.
-/
import proofs.«161768_j87170656240054_1_alg».proof.Proof.Gen.KernelIdeal.Skeleton
import proofs.«161768_j87170656240054_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg0

open Idealize.ShloMosaic Idealize.ShloMosaic.ValueIdx
open Cert.KernelIdeal Cert.KernelIdeal.Gen

/-! ## Layout operations with a unit axis, read at coordinates -/

section Layout
variable {α : Type}

/-- A matrix cast to `[a, b, 1]` (a unit axis appended) reads, at `(i, j, u)`, its entry `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix cast to `[a, 1, b]` (a unit axis in the middle) reads, at `(i, u, j)`, its entry `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array cast to the matrix `[a, b]` reads, at `(i, j)`, its entry `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` array broadcast along its last axis reads, at `(i, j, k)`, its entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast along its middle axis reads, at `(i, j, k)`, its entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array cut along its last axis from `o` reads, at `(a, e, j)`, the source at `(a, e, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (e : Fin n1) (j : Fin m) (k : Fin n2) (hk : k.val = o + j.val) :
    extractStridedSlice ⟨3, ![n0, n1, m]⟩ ![0, 0, o] X h (ix3 a e j) = X (ix3 a e k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Coordinate `c` of every point of an `[n0, n1, n2]` block, as a column repeated along a new last axis of
    extent `m`: at `(b, p, q)` it is the block's entry `(b, p, c)`. -/
theorem colBroadcast_apply {n0 n1 n2 m : ℕ} (c : ℕ) (x : (⟨3, ![n0, n1, n2]⟩ : Shape).Idx → α)
    (hs : (⟨3, ![n0, n1, n2]⟩ : Shape).Slices ![0, 0, c] ⟨3, ![n0, n1, 1]⟩)
    (hb : (⟨3, ![n0, n1, 1]⟩ : Shape).Broadcasts ⟨3, ![n0, n1, m]⟩)
    (b : Fin n0) (p : Fin n1) (q : Fin m) (k : Fin n2) (hk : k.val = c) :
    broadcastTo ⟨3, ![n0, n1, m]⟩ (extractStridedSlice ⟨3, ![n0, n1, 1]⟩ ![0, 0, c] x hs) hb (ix3 b p q) = x (ix3 b p k) :=
  (broadcastTo_ab1_abc_apply _ hb b p q).trans (slice3_axis2_apply c x hs b p 0 k (by rw [hk]; rfl))

/-- Coordinate `c` of every point of an `[n0, m, n2]` tile, as a row repeated along a new middle axis of extent
    `n1`: at `(b, p, q)` it is the tile's entry `(b, q, c)`. -/
theorem rowBroadcast_apply {n0 n1 n2 m : ℕ} (c : ℕ) (x : (⟨3, ![n0, m, n2]⟩ : Shape).Idx → α)
    (hs : (⟨3, ![n0, m, n2]⟩ : Shape).Slices ![0, 0, c] ⟨3, ![n0, m, 1]⟩)
    (hc1 : (⟨3, ![n0, m, 1]⟩ : Shape).ShapeCasts ⟨2, ![n0, m]⟩)
    (hc2 : (⟨2, ![n0, m]⟩ : Shape).ShapeCasts ⟨3, ![n0, 1, m]⟩)
    (hb : (⟨3, ![n0, 1, m]⟩ : Shape).Broadcasts ⟨3, ![n0, n1, m]⟩)
    (b : Fin n0) (p : Fin n1) (q : Fin m) (k : Fin n2) (hk : k.val = c) :
    broadcastTo ⟨3, ![n0, n1, m]⟩
        (shapeCast ⟨3, ![n0, 1, m]⟩ (shapeCast ⟨2, ![n0, m]⟩ (extractStridedSlice ⟨3, ![n0, m, 1]⟩ ![0, 0, c] x hs) hc1) hc2)
        hb (ix3 b p q) = x (ix3 b q k) :=
  (broadcastTo_a1c_abc_apply _ hb b p q).trans <|
    (shapeCast_ab_a1b_apply _ hc2 b 0 q).trans <|
      (shapeCast_ab1_ab_apply _ hc1 b q).trans (slice3_axis2_apply c x hs b q 0 k (by rw [hk]; rfl))

end Layout

/-! ## The two reductions along the last axis, read at coordinates -/

/-- The word `0x7F800000` is +∞. -/
theorem ofBits_top_f32 : Ideal.ofBits .f32 0x7F800000#32 = ⊤ := by simp [Ideal.ofBits, Ideal.ieee]

/-- The source index over `(b, p)` with `d` inserted on the dropped last axis is `(b, p, d)`. -/
theorem lift_ix2_last {n0 n1 n2 : ℕ} (h : Shape.Reduces ⟨3, ![n0, n1, n2]⟩ [2] ⟨2, ![n0, n1]⟩)
    (b : Fin n0) (p : Fin n1) (d : Fin n2) : h.lift (ix2 b p) d = ix3 b p d := by
  funext c
  match c with
  | ⟨0, _⟩ => rfl
  | ⟨1, _⟩ => rfl
  | ⟨2, _⟩ => rfl

/-- A sum along the last axis of a rank-3 array, from the zero word: at `(b, p)` the sum over `d` of the
    entries `(b, p, d)`. -/
theorem laneSum_apply {n0 n1 n2 : ℕ} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = FKind.add.neutral .f32 hφ) (b : Fin n0) (p : Fin n1) :
    multiReduction (F := Ideal) .add [2] ⟨2, ![n0, n1]⟩ x 0x00000000#32 h hφ hacc (ix2 b p)
      = ∑ d : Fin n2, x (ix3 b p d) := by
  refine (Ideal.multiReduction_add_single x 0x00000000#32 h hφ hacc (ix2 b p)).trans ?_
  exact Finset.sum_congr rfl fun d _ => congrArg x (lift_ix2_last h b p d)

/-- A float minimum over ONE axis at the ideal values: the fold of `min` from the accumulator's value over that
    axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum along the last axis of a rank-3 array, from +∞: at `(b, p)` the minimum over `q` of the entries
    `(b, p, q)`. -/
theorem rowMin_apply {n0 n1 n2 : ℕ} (x : FVec Ideal ⟨3, ![n0, n1, n2]⟩ .f32)
    (h : Shape.Reduces ⟨3, ![n0, n1, n2]⟩ [2] ⟨2, ![n0, n1]⟩) (hφ : FKind.Formats .f32)
    (hacc : (0x7F800000#32 : BitVec 32) = FKind.minimumf.neutral .f32 hφ) (b : Fin n0) (p : Fin n1) :
    multiReduction (F := Ideal) .minimumf [2] ⟨2, ![n0, n1]⟩ x 0x7F800000#32 h hφ hacc (ix2 b p)
      = (Finset.univ : Finset (Fin n2)).fold min ⊤ (fun q => x (ix3 b p q)) := by
  refine (multiReduction_minimumf_single x 0x7F800000#32 h hφ hacc (ix2 b p)).trans ?_
  show (Finset.univ : Finset (Fin n2)).fold min (Ideal.ofBits .f32 0x7F800000#32) (fun q => x (h.lift (ix2 b p) q)) = _
  rw [ofBits_top_f32]
  exact Finset.fold_congr fun q _ => congrArg x (lift_ix2_last h b p q)

/-- The squared norm of every point of an `[n0, n1, n2]` block, as a column repeated along a new last axis: at
    `(b, p, q)` the sum over the coordinate `d` of the squares of the block's entries `(b, p, d)`. -/
theorem colNormSq_apply {n0 n1 n2 m : ℕ} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = FKind.add.neutral .f32 hφ)
    (hc : (⟨2, ![n0, n1]⟩ : Shape).ShapeCasts ⟨3, ![n0, n1, 1]⟩)
    (hb : (⟨3, ![n0, n1, 1]⟩ : Shape).Broadcasts ⟨3, ![n0, n1, m]⟩) (b : Fin n0) (p : Fin n1) (q : Fin m) :
    broadcastTo ⟨3, ![n0, n1, m]⟩
        (shapeCast ⟨3, ![n0, n1, 1]⟩ (multiReduction (F := Ideal) .add [2] ⟨2, ![n0, n1]⟩ (mulf x x) 0x00000000#32 h hφ hacc) hc)
        hb (ix3 b p q) = ∑ d : Fin n2, x (ix3 b p d) * x (ix3 b p d) :=
  (broadcastTo_ab1_abc_apply _ hb b p q).trans <|
    (shapeCast_ab_ab1_apply _ hc b p 0).trans (laneSum_apply (mulf x x) h hφ hacc b p)

/-- The squared norm of every point of an `[n0, m, n2]` tile, as a row repeated along a new middle axis: at
    `(b, p, q)` the sum over the coordinate `d` of the squares of the tile's entries `(b, q, d)`. -/
theorem rowNormSq_apply {n0 n1 n2 m : ℕ} (x : FVec Ideal ⟨3, ![n0, m, n2]⟩ .f32)
    (h : Shape.Reduces ⟨3, ![n0, m, n2]⟩ [2] ⟨2, ![n0, m]⟩) (hφ : FKind.Formats .f32)
    (hacc : (0x00000000#32 : BitVec 32) = FKind.add.neutral .f32 hφ)
    (hc : (⟨2, ![n0, m]⟩ : Shape).ShapeCasts ⟨3, ![n0, 1, m]⟩)
    (hb : (⟨3, ![n0, 1, m]⟩ : Shape).Broadcasts ⟨3, ![n0, n1, m]⟩) (b : Fin n0) (p : Fin n1) (q : Fin m) :
    broadcastTo ⟨3, ![n0, n1, m]⟩
        (shapeCast ⟨3, ![n0, 1, m]⟩ (multiReduction (F := Ideal) .add [2] ⟨2, ![n0, m]⟩ (mulf x x) 0x00000000#32 h hφ hacc) hc)
        hb (ix3 b p q) = ∑ d : Fin n2, x (ix3 b q d) * x (ix3 b q d) :=
  (broadcastTo_a1c_abc_apply _ hb b p q).trans <|
    (shapeCast_ab_a1b_apply _ hc b 0 q).trans (laneSum_apply (mulf x x) h hφ hacc b q)

/-! ## The body's arithmetic at one entry -/

/-- The clamped squared distance the body forms for outer point `p` and inner point `q` of batch `b`. -/
theorem pay3_apply (o : Vec Ideal S2x1024x3 .f32) (i : Vec Ideal S2x512x3 .f32) (b : Fin 2) (p : Fin 1024) (q : Fin 512) :
    k0_pay3 (F := Ideal) o i (ix3 b p q)
      = max (((∑ d : Fin 3, o (ix3 b p d) * o (ix3 b p d)) + (∑ d : Fin 3, i (ix3 b q d) * i (ix3 b q d)))
          - Cert.Nearest.two * ((o (ix3 b p 0) * i (ix3 b q 0) + o (ix3 b p 1) * i (ix3 b q 1)) + o (ix3 b p 2) * i (ix3 b q 2)))
          Cert.Nearest.zero := by
  unfold k0_pay3
  simp only [shapeCast_self, maximumf_apply, subf_apply, addf_apply, mulf_apply, broadcast_apply]
  refine congrArg₂ max (congrArg₂ HSub.hSub (congrArg₂ HAdd.hAdd ?_ ?_) (congrArg₂ HMul.hMul rfl
    (congrArg₂ HAdd.hAdd (congrArg₂ HAdd.hAdd (congrArg₂ HMul.hMul ?_ ?_) (congrArg₂ HMul.hMul ?_ ?_))
      (congrArg₂ HMul.hMul ?_ ?_)))) rfl
  · exact colNormSq_apply o _ _ _ _ _ b p q
  · exact rowNormSq_apply i _ _ _ _ _ b p q
  · exact colBroadcast_apply 0 o _ _ b p q 0 rfl
  · exact rowBroadcast_apply 0 i _ _ _ _ b p q 0 rfl
  · exact colBroadcast_apply 1 o _ _ b p q 1 rfl
  · exact rowBroadcast_apply 1 i _ _ _ _ b p q 1 rfl
  · exact colBroadcast_apply 2 o _ _ b p q 2 rfl
  · exact rowBroadcast_apply 2 i _ _ _ _ b p q 2 rfl

/-- The reset value is +∞ everywhere. -/
theorem reset_apply (b : Fin 2) (p : Fin 1024) : k0_pay2 (F := Ideal) (ix2 b p) = ⊤ := by
  unfold k0_pay2
  simp only [shapeCast_self, broadcast_apply]
  exact ofBits_top_f32

/-- One lowering of the running minimum at outer point `p` of batch `b`. -/
theorem lower_apply (o : Vec Ideal S2x1024x3 .f32) (i : Vec Ideal S2x512x3 .f32) (acc : Vec Ideal S2x1024 .f32) (b : Fin 2) (p : Fin 1024) :
    k0_pay1 (F := Ideal) (k0_pay3 (F := Ideal) o i) (Scalar.ofBits .f32 0x322BCC77#32) acc (ix2 b p)
      = min (acc (ix2 b p)) ((Finset.univ : Finset (Fin 512)).fold min ⊤
          (fun q => Cert.Nearest.distOf (fun d => o (ix3 b p d)) (fun d => i (ix3 b q d)))) := by
  unfold k0_pay1
  simp only [shapeCast_self, minimumf_apply]
  refine congrArg (min (acc (ix2 b p))) ?_
  refine (rowMin_apply _ _ _ _ b p).trans ?_
  refine Finset.fold_congr fun q _ => ?_
  show Ideal.sqrt (Cert.Nearest.eps + k0_pay3 (F := Ideal) o i (ix3 b p q)) = _
  rw [pay3_apply]
  rfl

end Cert.KernelIdeal.Reg0

end
-- ==== Proof.KI.Reg0Value.lean ====
/-
  The first kernel's result array: for every outer point, the distance to its nearest inner point.

  Following the running minimum through the sixteen tiles of an outer block: after tile j the scratch entry of outer
  point p bounds from below exactly the distances to the inner points of tiles 0..j; after the last tile that is every
  inner point, so the entry is the nearest distance, and the block written back there is the specification's array
  restricted to the block. The eight write-backs cover the array.
-/
import proofs.«161768_j87170656240054_1_alg».proof.Proof.KI.Reg0Pieces
import proofs.«161768_j87170656240054_1_alg».proof.Proof.KI.Reg0Pay
import Idealize.ShloMosaic.Lib.Pipeline.Value

set_option maxRecDepth 16384

noncomputable section

namespace Cert.KernelIdeal.Reg0

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

section Region
variable (V : (c : Dev nD) → (b : Ref sig .tc) → Buf (Elt Ideal) ((c : Thread nD τ).loc b))

/-- The outer and the inner cloud: the arrays behind windows 0 and 1, as the region finds them. -/
abbrev outerArr (c : Dev nD) : FVec Ideal S2x8192x3 .f32 := V c (Pipeline.arrRef spec0 0)
abbrev innerArr (c : Dev nD) : FVec Ideal S2x8192x3 .f32 := V c (Pipeline.arrRef spec0 1)

/-! ## The index maps over the grid: point t = 16·o + j reads outer block o and inner tile j, and writes output block o -/

theorem idx_outer : ∀ t : Fin cfg0.N, win0_0.index t 0 = 0 ∧ win0_0.index t 1 = t.val / 16 ∧ win0_0.index t 2 = 0 :=
  (by decide +kernel : ∀ t : Fin grid0.N, _)
theorem idx_inner : ∀ t : Fin cfg0.N, win0_1.index t 0 = 0 ∧ win0_1.index t 1 = t.val % 16 ∧ win0_1.index t 2 = 0 :=
  (by decide +kernel : ∀ t : Fin grid0.N, _)
theorem idx_out : ∀ t : Fin cfg0.N, win0_2.index t 0 = 0 ∧ win0_2.index t 1 = t.val / 16 :=
  (by decide +kernel : ∀ t : Fin grid0.N, _)

theorem lt_N {n : ℕ} (hn : n < cfg0.N) : n < 128 := lt_of_lt_of_eq hn (show cfg0.N = 128 from N_0)

/-- Outer point r of the block at point n is point (n / 16)·1024 + r of the cloud. -/
abbrev outerPt (n : ℕ) (hn : n < cfg0.N) (r : Fin 1024) : Fin 8192 :=
  ⟨(n / 16) * 1024 + r.val, by have := lt_N hn; have := r.isLt; omega⟩
/-- Inner point s of the tile at point n is point (n % 16)·512 + s of the cloud. -/
abbrev innerPt (n : ℕ) (s : Fin 512) : Fin 8192 := ⟨(n % 16) * 512 + s.val, by have := s.isLt; omega⟩

/-- The outer block at point n, entry by entry. -/
theorem outer_read (c : Dev nD) (n : ℕ) (hn : n < cfg0.N) (b : Fin 2) (r : Fin 1024) (d : Fin 3) :
    (iblk V c 0 ⟨n, hn⟩ : Vec Ideal S2x1024x3 .f32) (ix3 b r d) = outerArr V c (ix3 b (outerPt n hn r) d) := by
  unfold iblk
  rw [View.read_apply]
  show V c (Pipeline.arrRef spec0 0) (((cfg0.win 0).blk ⟨n, hn⟩).view.emb (ix3 b r d))
    = V c (Pipeline.arrRef spec0 0) (ix3 b (outerPt n hn r) d)
  refine congrArg (V c (Pipeline.arrRef spec0 0)) (funext fun a => Fin.ext ?_)
  obtain ⟨e0, e1, e2⟩ := idx_outer ⟨n, hn⟩
  have e1' : win0_0.index ⟨n, hn⟩ 1 = n / 16 := e1
  match a with
  | ⟨0, _⟩ => show win0_0.index ⟨n, hn⟩ 0 * 2 + 1 * b.val = b.val; rw [e0]; omega
  | ⟨1, _⟩ => show win0_0.index ⟨n, hn⟩ 1 * 1024 + 1 * r.val = (n / 16) * 1024 + r.val; rw [e1']; omega
  | ⟨2, _⟩ => show win0_0.index ⟨n, hn⟩ 2 * 3 + 1 * d.val = d.val; rw [e2]; omega

/-- The inner tile at point n, entry by entry. -/
theorem inner_read (c : Dev nD) (n : ℕ) (hn : n < cfg0.N) (b : Fin 2) (s : Fin 512) (d : Fin 3) :
    (iblk V c 1 ⟨n, hn⟩ : Vec Ideal S2x512x3 .f32) (ix3 b s d) = innerArr V c (ix3 b (innerPt n s) d) := by
  unfold iblk
  rw [View.read_apply]
  show V c (Pipeline.arrRef spec0 1) (((cfg0.win 1).blk ⟨n, hn⟩).view.emb (ix3 b s d))
    = V c (Pipeline.arrRef spec0 1) (ix3 b (innerPt n s) d)
  refine congrArg (V c (Pipeline.arrRef spec0 1)) (funext fun a => Fin.ext ?_)
  obtain ⟨e0, e1, e2⟩ := idx_inner ⟨n, hn⟩
  have e1' : win0_1.index ⟨n, hn⟩ 1 = n % 16 := e1
  match a with
  | ⟨0, _⟩ => show win0_1.index ⟨n, hn⟩ 0 * 2 + 1 * b.val = b.val; rw [e0]; omega
  | ⟨1, _⟩ => show win0_1.index ⟨n, hn⟩ 1 * 512 + 1 * s.val = (n % 16) * 512 + s.val; rw [e1']; omega
  | ⟨2, _⟩ => show win0_1.index ⟨n, hn⟩ 2 * 3 + 1 * d.val = d.val; rw [e2]; omega

/-! ## The scratch, point by point, as one lowering of what the point before left -/

theorem acc_first (c : Dev nD) (n : ℕ) (hn : n < cfg0.N) (h0 : n % 16 = 0) :
    accAt V c n hn = lower (iblk V c 0 ⟨n, hn⟩) (iblk V c 1 ⟨n, hn⟩) (k0_pay2 (F := Ideal)) :=
  (accAt_first V c ⟨n, hn⟩ h0).trans
    (accFirst_eq c (grid0.coords ⟨n, hn⟩) (ms_0 ⟨n, hn⟩) (hs_0 ⟨n, hn⟩) (ms_1 ⟨n, hn⟩) (hs_1 ⟨n, hn⟩) (ms_2 ⟨n, hn⟩)
      (hs_2 ⟨n, hn⟩) scM (Memref.isWhole_whole _) ((hcondFirst ⟨n, hn⟩).mpr h0) (notLast_of_first ⟨n, hn⟩ h0)
      (iblk V c 0 ⟨n, hn⟩) (iblk V c 1 ⟨n, hn⟩))

theorem acc_next (c : Dev nD) (m : ℕ) (hn : m + 1 < cfg0.N) (h0 : ¬(m + 1) % 16 = 0) :
    accAt V c (m + 1) hn
      = lower (iblk V c 0 ⟨m + 1, hn⟩) (iblk V c 1 ⟨m + 1, hn⟩) (accAt V c m (Nat.lt_of_succ_lt hn)) := by
  by_cases h1 : (m + 1) % 16 = 15
  · exact ((dif_neg h0).trans (dif_pos h1)).trans
      (accLast_eq c (grid0.coords ⟨m + 1, hn⟩) (ms_0 ⟨m + 1, hn⟩) (hs_0 ⟨m + 1, hn⟩) (ms_1 ⟨m + 1, hn⟩) (hs_1 ⟨m + 1, hn⟩)
        (ms_2 ⟨m + 1, hn⟩) (hs_2 ⟨m + 1, hn⟩) scM (Memref.isWhole_whole _) (notFirst_of_last ⟨m + 1, hn⟩ h1)
        ((hcondLast ⟨m + 1, hn⟩).mpr h1) (iblk V c 0 ⟨m + 1, hn⟩) (iblk V c 1 ⟨m + 1, hn⟩) (accAt V c m (Nat.lt_of_succ_lt hn)))
  · exact ((dif_neg h0).trans (dif_neg h1)).trans
      (accMid_eq c (grid0.coords ⟨m + 1, hn⟩) (ms_0 ⟨m + 1, hn⟩) (hs_0 ⟨m + 1, hn⟩) (ms_1 ⟨m + 1, hn⟩) (hs_1 ⟨m + 1, hn⟩)
        (ms_2 ⟨m + 1, hn⟩) (hs_2 ⟨m + 1, hn⟩) scM (Memref.isWhole_whole _) (fun h => h0 ((hcondFirst ⟨m + 1, hn⟩).mp h))
        (fun h => h1 ((hcondLast ⟨m + 1, hn⟩).mp h)) (iblk V c 0 ⟨m + 1, hn⟩) (iblk V c 1 ⟨m + 1, hn⟩) (accAt V c m (Nat.lt_of_succ_lt hn)))

/-- At a last tile the block written out is the scratch as just stored. -/
theorem out_eq_acc (c : Dev nD) (t : Fin cfg0.N) (h1 : t.val % 16 = 15) : outAt V c t = accAt V c t.val t.isLt := by
  rw [outAt_last V c t h1, accAt_last V c t h1]
  unfold outLastAt accLastAt
  rw [outLast_eq, accLast_eq]

/-! ## One tile, then the running minimum by its universal property -/

/-- A bound is below the tile's minimum iff it is below the distance to every inner point of the tile. -/
theorem le_tile (c : Dev nD) (n : ℕ) (hn : n < cfg0.N) (b : Fin 2) (r : Fin 1024) (e : EReal) :
    e ≤ (Finset.univ : Finset (Fin 512)).fold min ⊤
        (fun s => Cert.Nearest.distOf (fun d => (iblk V c 0 ⟨n, hn⟩ : Vec Ideal S2x1024x3 .f32) (ix3 b r d))
          (fun d => (iblk V c 1 ⟨n, hn⟩ : Vec Ideal S2x512x3 .f32) (ix3 b s d)))
      ↔ ∀ q : Fin 8192, (n % 16) * 512 ≤ q.val → q.val < (n % 16 + 1) * 512 →
          e ≤ Cert.Nearest.dist (outerArr V c) (innerArr V c) b (outerPt n hn r) q := by
  rw [Finset.le_fold_min]
  simp only [outer_read, inner_read]
  constructor
  · rintro ⟨-, h⟩ q hlo hhi
    have hq : innerPt n ⟨q.val - (n % 16) * 512, by omega⟩ = q :=
      Fin.ext (by show (n % 16) * 512 + (q.val - (n % 16) * 512) = q.val; omega)
    have := h ⟨q.val - (n % 16) * 512, by omega⟩ (Finset.mem_univ _)
    rw [hq] at this
    exact this
  · intro h
    exact ⟨le_top, fun s _ => h (innerPt n s) (by show (n % 16) * 512 ≤ (n % 16) * 512 + s.val; omega)
      (by show (n % 16) * 512 + s.val < _; have := s.isLt; omega)⟩

/-- After point n the scratch entry of outer point r bounds from below exactly the distances to the inner points of the
    tiles so far. -/
theorem acc_inv (c : Dev nD) : ∀ (n : ℕ) (hn : n < cfg0.N) (b : Fin 2) (r : Fin 1024) (e : EReal),
    e ≤ accAt V c n hn (ix2 b r) ↔ ∀ q : Fin 8192, q.val < (n % 16 + 1) * 512 →
      e ≤ Cert.Nearest.dist (outerArr V c) (innerArr V c) b (outerPt n hn r) q := by
  intro n
  induction n with
  | zero =>
    intro hn b r e
    rw [acc_first V c 0 hn rfl]
    unfold lower
    rw [lower_apply (iblk V c 0 ⟨0, hn⟩) (iblk V c 1 ⟨0, hn⟩) (k0_pay2 (F := Ideal)) b r, reset_apply, min_top_left, le_tile]
    exact ⟨fun h q hq => h q (by omega) hq, fun h q _ hq => h q hq⟩
  | succ m ih =>
    intro hn b r e
    by_cases h0 : (m + 1) % 16 = 0
    · rw [acc_first V c (m + 1) hn h0]
      unfold lower
      rw [lower_apply (iblk V c 0 ⟨m + 1, hn⟩) (iblk V c 1 ⟨m + 1, hn⟩) (k0_pay2 (F := Ideal)) b r, reset_apply, min_top_left, le_tile]
      exact ⟨fun h q hq => h q (by omega) hq, fun h q _ hq => h q hq⟩
    · rw [acc_next V c m hn h0]
      unfold lower
      rw [lower_apply (iblk V c 0 ⟨m + 1, hn⟩) (iblk V c 1 ⟨m + 1, hn⟩) (accAt V c m (Nat.lt_of_succ_lt hn)) b r, le_min_iff, le_tile,
        ih (Nat.lt_of_succ_lt hn) b r e]
      have hp : outerPt m (Nat.lt_of_succ_lt hn) r = outerPt (m + 1) hn r :=
        Fin.ext (by show (m / 16) * 1024 + r.val = ((m + 1) / 16) * 1024 + r.val; omega)
      rw [hp]
      constructor
      · rintro ⟨h1, h2⟩ q hq
        by_cases hlt : q.val < (m % 16 + 1) * 512
        · exact h1 q hlt
        · exact h2 q (by omega) hq
      · intro h
        exact ⟨fun q hq => h q (by omega), fun q _ hq => h q hq⟩

/-! ## The block written back at a last tile, and the array -/

/-- At the last tile of an outer block every inner point has been met: the entry is the nearest distance. -/
theorem out_nearest (c : Dev nD) (t : Fin cfg0.N) (h1 : t.val % 16 = 15) (b : Fin 2) (r : Fin 1024) :
    outAt V c t (ix2 b r) = Cert.Nearest.nearest (outerArr V c) (innerArr V c) b (outerPt t.val t.isLt r) := by
  rw [out_eq_acc V c t h1]
  refine Cert.Nearest.eq_of_forall_le_iff' fun e => ?_
  rw [acc_inv V c t.val t.isLt b r e, Cert.Nearest.le_nearest_iff]
  exact ⟨fun h q => h q (by have := q.isLt; omega), fun h q _ => h q⟩

/-- Entry j of the block written back at a last tile is the specification's array where the block sits. -/
theorem out_block (c : Dev nD) (t : Fin cfg0.N) (h1 : t.val % 16 = 15) (j : S2x1024.Idx) :
    outAt V c t j
      = Cert.Nearest.nearestArr (outerArr V c) (innerArr V c) (((cfg0.win 2).blk t).view.emb j) := by
  obtain ⟨b, r, rfl⟩ : ∃ (b : Fin 2) (r : Fin 1024), j = ix2 b r := ⟨j 0, j 1, eq_ix2 j⟩
  have hemb : ((cfg0.win 2).blk t).view.emb (ix2 b r) = ix2 b (outerPt t.val t.isLt r) := by
    funext a; apply Fin.ext
    obtain ⟨e0, e1⟩ := idx_out t
    match a with
    | ⟨0, _⟩ => show win0_2.index t 0 * 2 + 1 * b.val = b.val; rw [e0]; omega
    | ⟨1, _⟩ => show win0_2.index t 1 * 1024 + 1 * r.val = (t.val / 16) * 1024 + r.val; rw [e1]; omega
  rw [hemb, Cert.Nearest.nearestArr_apply, out_nearest V c t h1]

/-- What a write-back writes is the specification's array read through the block. -/
theorem flushed_eq (c : Dev nD) (t : Fin cfg0.N) (hf : (cfg0.win 2).flush t = true) :
    (dat (F := Ideal) V c).flushed 2 t
      = ((cfg0.win 2).blk t).view.read (Elt Ideal) (Cert.Nearest.nearestArr (outerArr V c) (innerArr V c)) := by
  have h1 : t.val % 16 = 15 := (flush0_2 t).mp hf
  show (cfg0.win 2).cut (grid0.coords t) ((dat (F := Ideal) V c).after 2 t) = _
  rw [after_2]
  funext j
  rw [View.read_apply]
  exact out_block V c t h1 j

/-- THE RESULT ARRAY after the region is the nearest-distance array of the two clouds. -/
theorem final_out (c : Dev nD) :
    (dat (F := Ideal) V c).arrAt 2 cfg0.N = Cert.Nearest.nearestArr (outerArr V c) (innerArr V c) := by
  refine (dat (F := Ideal) V c).arrAt_eq_of_cover 2 (Cert.Nearest.nearestArr (outerArr V c) (innerArr V c))
    (flushed_eq V c) fun i => ?_
  have hp : (i 1).val < 8192 := (i 1).isLt
  have hN : cfg0.N = 128 := N_0
  obtain ⟨t, ht⟩ : ∃ t : Fin cfg0.N, t.val = 16 * ((i 1).val / 1024) + 15 := ⟨⟨_, by omega⟩, rfl⟩
  refine ⟨t, (flush0_2 t).mpr (by omega), ?_⟩
  show i ∈ ((View.whole main_v2).slice (win0_2.rect t)).set
  rw [View.set_slice_whole, Rect.mem_set_unit]
  obtain ⟨e0, e1⟩ := idx_out t
  intro a
  match a with
  | ⟨0, _⟩ =>
    show win0_2.index t 0 * 2 ≤ (i 0).val ∧ (i 0).val < win0_2.index t 0 * 2 + 2
    have hb : (i 0).val < 2 := (i 0).isLt
    rw [e0]; omega
  | ⟨1, _⟩ =>
    show win0_2.index t 1 * 1024 ≤ (i 1).val ∧ (i 1).val < win0_2.index t 1 * 1024 + 1024
    rw [e1]; omega

end Region

end Cert.KernelIdeal.Reg0

end
-- ==== Proof.KI.Value.lean ====
/-
  The idealized kernel program's result, read off its run.

  With x and y the two transposed clouds: the first kernel leaves in its output array the nearest distances from x to
  y, the second (entered with the clouds swapped) those from y to x, and the closing host operations return the mean
  of the one plus the mean of the other.
-/
import proofs.«161768_j87170656240054_1_alg».proof.Proof.KI.Run
import proofs.«161768_j87170656240054_1_alg».proof.Proof.KI.Reg0Value
import proofs.«161768_j87170656240054_1_alg».proof.Proof.KI.Reg1Value
import Idealize.ShloMosaic.Lib.StableHlo.Run

set_option maxRecDepth 16384

noncomputable section

namespace Cert.KernelIdeal.Whole

open Idealize.ShloMosaic Idealize.ShloMosaic.TcCoe Idealize.ShloMosaic.Tactic Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The two clouds, point axis before coordinate axis. -/
abbrev X (c : Dev nD) : FVec Ideal S2x8192x3 .f32 :=
  Cert.Nearest.pts transposes_S2x3x8192_S2x8192x3_0_2_1 (m ((c : Thread nD τ).loc main_arg0))
abbrev Y (c : Dev nD) : FVec Ideal S2x8192x3 .f32 :=
  Cert.Nearest.pts transposes_S2x3x8192_S2x8192x3_0_2_1 (m ((c : Thread nD τ).loc main_arg1))

/-- What the program returns. -/
abbrev result (c : Dev nD) : FVec Ideal S_ .f32 :=
  Cert.Nearest.meanSum reducesTo_S2x8192_S_d0_1 h_S_
    (Cert.Nearest.nearestArr (X m c) (Y m c)) (Cert.Nearest.nearestArr (Y m c) (X m c))

/-! ## The transposes -/

theorem U1_v0 (c : Dev nD) : (U1 m ρ c (Proc.devRef .tc main_v0) : FVec Ideal S2x8192x3 .f32) = X m c := by
  show StableHlo.after hostOps0 (U0 m ρ c) (Proc.devRef .tc main_v0) = _
  after_results
  rfl
theorem U1_v1 (c : Dev nD) : (U1 m ρ c (Proc.devRef .tc main_v1) : FVec Ideal S2x8192x3 .f32) = Y m c := by
  show StableHlo.after hostOps0 (U0 m ρ c) (Proc.devRef .tc main_v1) = _
  after_results
  rfl

/-! ## The first kernel: its inputs stay, its output is the nearest distances from x to y -/

theorem U2_v0 (c : Dev nD) : (U2 m ρ c (Proc.devRef .tc main_v0) : FVec Ideal S2x8192x3 .f32) = X m c :=
  (U2_arr m ρ c 0).trans (((Reg0.dat (A1 m ρ) c).arrAt_in 0 rfl _).trans ((Reg0.A_eq (A1 m ρ) c 0).trans (U1_v0 m ρ c)))
theorem U2_v1 (c : Dev nD) : (U2 m ρ c (Proc.devRef .tc main_v1) : FVec Ideal S2x8192x3 .f32) = Y m c :=
  (U2_arr m ρ c 1).trans (((Reg0.dat (A1 m ρ) c).arrAt_in 1 rfl _).trans ((Reg0.A_eq (A1 m ρ) c 1).trans (U1_v1 m ρ c)))
theorem U2_v2 (c : Dev nD) :
    (U2 m ρ c (Proc.devRef .tc main_v2) : FVec Ideal S2x8192 .f32) = Cert.Nearest.nearestArr (X m c) (Y m c) := by
  refine (U2_arr m ρ c 2).trans ((Reg0.final_out (A1 m ρ) c).trans ?_)
  show Cert.Nearest.nearestArr (U1 m ρ c (Proc.devRef .tc main_v0)) (U1 m ρ c (Proc.devRef .tc main_v1)) = _
  rw [U1_v0, U1_v1]

/-! ## The second kernel: the clouds swapped -/

theorem U3_v2 (c : Dev nD) :
    (U3 m ρ c (Proc.devRef .tc main_v2) : FVec Ideal S2x8192 .f32) = Cert.Nearest.nearestArr (X m c) (Y m c) :=
  (U3_of_ne m ρ c main_v2 (by decide)).trans (U2_v2 m ρ c)
theorem U3_v3 (c : Dev nD) :
    (U3 m ρ c (Proc.devRef .tc main_v3) : FVec Ideal S2x8192 .f32) = Cert.Nearest.nearestArr (Y m c) (X m c) := by
  refine (U3_arr m ρ c 2).trans ((Reg1.final_out (A2 m ρ) c).trans ?_)
  show Cert.Nearest.nearestArr (U2 m ρ c (Proc.devRef .tc main_v1)) (U2 m ρ c (Proc.devRef .tc main_v0)) = _
  rw [U2_v1, U2_v0]

/-! ## The closing means -/

theorem U4_v8 (c : Dev nD) : (U4 m ρ c (Proc.devRef .tc main_v8) : FVec Ideal S_ .f32) = result m c := by
  show StableHlo.after hostOps2 (U3 m ρ c) (Proc.devRef .tc main_v8) = _
  after_results
  rw [U3_v2, U3_v3]
  rfl

/-- THE VALUE RUN: every execution terminates with the result buffer at `result` and both arguments as launched. -/
theorem run_value : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v8 (by decide))).trans (U4_v8 m ρ c),
     (h c _ (mem_uc main_arg0 (by decide))).trans (U4_main_arg0 m ρ c),
     (h c _ (mem_uc main_arg1 (by decide))).trans (U4_main_arg1 m ρ c)⟩) (run_all m ρ)

end Cert.KernelIdeal.Whole

end
-- ==== Proof.RefValue.lean ====
/-
  The reference's side: its run's result is the specification's function of the argument arrays.

  The reference transposes both clouds, forms the full 8192 × 8192 table of smoothed distances
  dist[b, i, j] = √(ε + max ((‖y_i‖² + ‖x_j‖²) − 2·⟨y_i, x_j⟩) 0) (the inner product one contraction over the
  coordinate), takes its minimum over i (for each point of x its nearest point of y) and over j (for each point of y
  its nearest point of x), and adds the two means.
-/
import proofs.«161768_j87170656240054_1_alg».proof.Proof.Gen.ReferenceIdeal.Run
import proofs.«161768_j87170656240054_1_alg».proof.Proof.Gen.ReferenceIdeal.Read
import proofs.«161768_j87170656240054_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reference run's result (the generated run's composed term) as a function of the two argument arrays. -/
def refTerm (a0 a1 : FVec Ideal S2x3x8192 .f32) : FVec Ideal S_ .f32 :=
  addf (Host.divf (Host.reduceAdd (Host.reduce FloatOps.minimumf (Host.sqrt (addf (broadcastInDim S2x8192x8192 ![] bcast_S_S2x8192x8192 (constant S_ .f32 0x322BCC77#32)) (maximumf (subf (addf (broadcastInDim S2x8192x8192 ![0, 1, 2] bcast_S2x8192x1_S2x8192x8192_0_1_2 (broadcastInDim S2x8192x1 ![0, 1] bcast_S2x8192_S2x8192x1_0_1 (Host.reduceAdd (mulf (transpose S2x8192x3 [0, 2, 1] a1 transposes_S2x3x8192_S2x8192x3_0_2_1) (transpose S2x8192x3 [0, 2, 1] a1 transposes_S2x3x8192_S2x8192x3_0_2_1)) (constant S_ .f32 0x00000000#32) reducesTo_S2x8192x3_S2x8192_d2 h_S_))) (broadcastInDim S2x8192x8192 ![0, 1, 2] bcast_S2x1x8192_S2x8192x8192_0_1_2 (broadcastInDim S2x1x8192 ![0, 2] bcast_S2x8192_S2x1x8192_0_2 (Host.reduceAdd (mulf (transpose S2x8192x3 [0, 2, 1] a0 transposes_S2x3x8192_S2x8192x3_0_2_1) (transpose S2x8192x3 [0, 2, 1] a0 transposes_S2x3x8192_S2x8192x3_0_2_1)) (constant S_ .f32 0x00000000#32) reducesTo_S2x8192x3_S2x8192_d2 h_S_)))) (mulf (broadcastInDim S2x8192x8192 ![] bcast_S_S2x8192x8192 (constant S_ .f32 0x40000000#32)) (Host.dotGeneral dot_S2x8192x3_S2x8192x3_S2x8192x8192_2_2_1_1_0_0 none (transpose S2x8192x3 [0, 2, 1] a1 transposes_S2x3x8192_S2x8192x3_0_2_1) (transpose S2x8192x3 [0, 2, 1] a0 transposes_S2x3x8192_S2x8192x3_0_2_1)))) (broadcastInDim S2x8192x8192 ![] bcast_S_S2x8192x8192 (constant S_ .f32 0x00000000#32))))) (constant S_ .f32 0x7F800000#32) reducesTo_S2x8192x8192_S2x8192_d1 h_S_) (constant S_ .f32 0x00000000#32) reducesTo_S2x8192_S_d0_1 h_S_) (constant S_ .f32 0x46800000#32)) (Host.divf (Host.reduceAdd (Host.reduce FloatOps.minimumf (Host.sqrt (addf (broadcastInDim S2x8192x8192 ![] bcast_S_S2x8192x8192 (constant S_ .f32 0x322BCC77#32)) (maximumf (subf (addf (broadcastInDim S2x8192x8192 ![0, 1, 2] bcast_S2x8192x1_S2x8192x8192_0_1_2 (broadcastInDim S2x8192x1 ![0, 1] bcast_S2x8192_S2x8192x1_0_1 (Host.reduceAdd (mulf (transpose S2x8192x3 [0, 2, 1] a1 transposes_S2x3x8192_S2x8192x3_0_2_1) (transpose S2x8192x3 [0, 2, 1] a1 transposes_S2x3x8192_S2x8192x3_0_2_1)) (constant S_ .f32 0x00000000#32) reducesTo_S2x8192x3_S2x8192_d2 h_S_))) (broadcastInDim S2x8192x8192 ![0, 1, 2] bcast_S2x1x8192_S2x8192x8192_0_1_2 (broadcastInDim S2x1x8192 ![0, 2] bcast_S2x8192_S2x1x8192_0_2 (Host.reduceAdd (mulf (transpose S2x8192x3 [0, 2, 1] a0 transposes_S2x3x8192_S2x8192x3_0_2_1) (transpose S2x8192x3 [0, 2, 1] a0 transposes_S2x3x8192_S2x8192x3_0_2_1)) (constant S_ .f32 0x00000000#32) reducesTo_S2x8192x3_S2x8192_d2 h_S_)))) (mulf (broadcastInDim S2x8192x8192 ![] bcast_S_S2x8192x8192 (constant S_ .f32 0x40000000#32)) (Host.dotGeneral dot_S2x8192x3_S2x8192x3_S2x8192x8192_2_2_1_1_0_0 none (transpose S2x8192x3 [0, 2, 1] a1 transposes_S2x3x8192_S2x8192x3_0_2_1) (transpose S2x8192x3 [0, 2, 1] a0 transposes_S2x3x8192_S2x8192x3_0_2_1)))) (broadcastInDim S2x8192x8192 ![] bcast_S_S2x8192x8192 (constant S_ .f32 0x00000000#32))))) (constant S_ .f32 0x7F800000#32) reducesTo_S2x8192x8192_S2x8192_d2 h_S_) (constant S_ .f32 0x00000000#32) reducesTo_S2x8192_S_d0_1 h_S_) (constant S_ .f32 0x46800000#32))

/-! ## Indices: what the layout operations read, by coordinates -/

local notation "cloud" => Cert.Nearest.pts transposes_S2x3x8192_S2x8192x3_0_2_1

/-- The squared norm of point p of a cloud sums over the coordinates of (b, p). -/
theorem idx_norm0 (b : Fin 2) (p : Fin 8192) (k : Fin 3) : Read.idx_main_v3 (ix2 b p) k = ix3 b p k := by
  funext a; match a with | ⟨0, _⟩ => rfl | ⟨1, _⟩ => rfl | ⟨2, _⟩ => rfl

theorem idx_norm1 (b : Fin 2) (p : Fin 8192) (k : Fin 3) : Read.idx_main_v5 (ix2 b p) k = ix3 b p k := by
  funext a; match a with | ⟨0, _⟩ => rfl | ⟨1, _⟩ => rfl | ⟨2, _⟩ => rfl

/-- The contraction at (b, i, j) reads point i of its left operand and point j of its right operand. -/
theorem idx_left (b : Fin 2) (i j : Fin 8192) (k : Fin 3) : Read.lidx_main_v6 (ix3 b i j) k = ix3 b i k := by
  funext a; match a with | ⟨0, _⟩ => rfl | ⟨1, _⟩ => rfl | ⟨2, _⟩ => rfl

theorem idx_right (b : Fin 2) (i j : Fin 8192) (k : Fin 3) : Read.ridx_main_v6 (ix3 b i j) k = ix3 b j k := by
  funext a; match a with | ⟨0, _⟩ => rfl | ⟨1, _⟩ => rfl | ⟨2, _⟩ => rfl

/-- Broadcast along the last axis: entry (b, i, j) reads row (b, i). -/
theorem idx_row (b : Fin 2) (i j : Fin 8192) : Read.idx_main_v7 (Read.idx_main_v9 (ix3 b i j)) = ix2 b i := by
  funext a; match a with | ⟨0, _⟩ => rfl | ⟨1, _⟩ => rfl

/-- Broadcast along the middle axis: entry (b, i, j) reads row (b, j). -/
theorem idx_col (b : Fin 2) (i j : Fin 8192) : Read.idx_main_v8 (Read.idx_main_v10 (ix3 b i j)) = ix2 b j := by
  funext a; match a with | ⟨0, _⟩ => rfl | ⟨1, _⟩ => rfl

/-! ## The table of distances at an index -/

/-- The squared norms of the first cloud: 0 + the sum of the three squares. -/
theorem norm0_apply (a0 : FVec Ideal S2x3x8192 .f32) (b : Fin 2) (p : Fin 8192) :
    Read.val_main_v3 (F := Ideal) a0 (ix2 b p) = Cert.Nearest.sq (cloud a0) b p := by
  rw [Read.val_main_v3_apply, Read.val_main_cst_apply]
  show Ideal.ofBits .f32 0x00000000#32 + _ = _
  rw [Ideal.ofBits_zero_f32, zero_add]
  unfold Cert.Nearest.sq
  refine Finset.sum_congr rfl fun k _ => ?_
  rw [Read.val_main_v2_apply, idx_norm0 b p k]
  rfl

/-- The squared norms of the second cloud. -/
theorem norm1_apply (a1 : FVec Ideal S2x3x8192 .f32) (b : Fin 2) (p : Fin 8192) :
    Read.val_main_v5 (F := Ideal) a1 (ix2 b p) = Cert.Nearest.sq (cloud a1) b p := by
  rw [Read.val_main_v5_apply, Read.val_main_cst_0_apply]
  show Ideal.ofBits .f32 0x00000000#32 + _ = _
  rw [Ideal.ofBits_zero_f32, zero_add]
  unfold Cert.Nearest.sq
  refine Finset.sum_congr rfl fun k _ => ?_
  rw [Read.val_main_v4_apply, idx_norm1 b p k]
  rfl

/-- The contraction over the coordinate is the inner product of point i of the second cloud with point j of the first. -/
theorem cross_apply (a0 a1 : FVec Ideal S2x3x8192 .f32) (b : Fin 2) (i j : Fin 8192) :
    Read.val_main_v6 (F := Ideal) a0 a1 (ix3 b i j) = Cert.Nearest.inner (cloud a1) (cloud a0) b i j := by
  rw [Read.val_main_v6_apply, Cert.Nearest.inner_eq_sum]
  refine Finset.sum_congr rfl fun k _ => ?_
  rw [idx_left b i j k, idx_right b i j k]
  rfl

/-- Entry (b, i, j) of the table is the smoothed distance between point i of the second cloud and point j of the first. -/
theorem table_apply (a0 a1 : FVec Ideal S2x3x8192 .f32) (b : Fin 2) (i j : Fin 8192) :
    Read.val_main_v19 (F := Ideal) a0 a1 (ix3 b i j) = Cert.Nearest.dist (cloud a1) (cloud a0) b i j := by
  rw [Read.val_main_v19_apply, Read.val_main_v18_apply, Read.val_main_v17_apply, Read.val_main_cst_3_apply,
    Read.val_main_v16_apply, Read.val_main_v15_apply, Read.val_main_cst_2_apply, Read.val_main_v14_apply,
    Read.val_main_v13_apply, Read.val_main_v12_apply, Read.val_main_cst_1_apply, Read.val_main_v11_apply,
    Read.val_main_v9_apply, Read.val_main_v7_apply, Read.val_main_v10_apply, Read.val_main_v8_apply,
    idx_row b i j, idx_col b i j, norm1_apply, norm0_apply, cross_apply]
  rfl

/-! ## The two minima -/

/-- The word of +∞. -/
theorem ofBits_inf_f32 : Ideal.ofBits .f32 0x7F800000#32 = (⊤ : EReal) := by simp [Ideal.ofBits, Ideal.ieee]

theorem reduces_mid : S2x8192x8192.Reduces [1] S2x8192 := by decide
theorem reduces_last : S2x8192x8192.Reduces [2] S2x8192 := by decide

/-- Inserting k on the middle axis of (b, p). -/
theorem lift_mid (b : Fin 2) (p k : Fin 8192) : reduces_mid.lift (ix2 b p) k = ix3 b k p := by
  funext a; match a with | ⟨0, _⟩ => rfl | ⟨1, _⟩ => rfl | ⟨2, _⟩ => rfl

/-- Inserting k on the last axis of (b, p). -/
theorem lift_last (b : Fin 2) (p k : Fin 8192) : reduces_last.lift (ix2 b p) k = ix3 b p k := by
  funext a; match a with | ⟨0, _⟩ => rfl | ⟨1, _⟩ => rfl | ⟨2, _⟩ => rfl

/-- On the extended reals the float minimum is min, so a fold of one is the fold of the other. -/
theorem fold_minimumf {n : Nat} (c : EReal) (f : Fin n → EReal) :
    (Finset.univ : Finset (Fin n)).fold (FloatOps.minimumf (F := Ideal) (φ := .f32)) c f
      = (Finset.univ : Finset (Fin n)).fold min c f := rfl

/-- The minimum over the middle axis: for each point of the first cloud, its nearest point of the second. -/
theorem min_mid (a0 a1 : FVec Ideal S2x3x8192 .f32) :
    Read.val_main_v20 (F := Ideal) a0 a1 = Cert.Nearest.nearestArr (cloud a0) (cloud a1) := by
  funext j
  obtain ⟨b, p, rfl⟩ : ∃ b p, j = ix2 b p := ⟨j 0, j 1, eq_ix2 j⟩
  unfold Read.val_main_v20
  rw [Host.reduce_eq_fold_single FloatOps.minimumf _ _ reducesTo_S2x8192x8192_S2x8192_d1 reduces_mid h_S_,
    Cert.Nearest.nearestArr_apply, Cert.Nearest.nearest_eq_fold_symm, Read.val_main_cst_4_apply, fold_minimumf]
  have hf : (Read.val_main_v19 (F := Ideal) a0 a1 ∘ reduces_mid.lift (ix2 b p))
      = fun q : Fin (S2x8192x8192.size 1) => Cert.Nearest.dist (cloud a1) (cloud a0) b q p :=
    funext fun q => by
      show Read.val_main_v19 (F := Ideal) a0 a1 (reduces_mid.lift (ix2 b p) q) = _
      rw [lift_mid b p q]
      exact table_apply a0 a1 b q p
  rw [hf]
  show Finset.fold min (Ideal.ofBits .f32 0x7F800000#32) _ _ = _
  rw [ofBits_inf_f32]
  rfl

/-- The minimum over the last axis: for each point of the second cloud, its nearest point of the first. -/
theorem min_last (a0 a1 : FVec Ideal S2x3x8192 .f32) :
    Read.val_main_v21 (F := Ideal) a0 a1 = Cert.Nearest.nearestArr (cloud a1) (cloud a0) := by
  funext j
  obtain ⟨b, p, rfl⟩ : ∃ b p, j = ix2 b p := ⟨j 0, j 1, eq_ix2 j⟩
  unfold Read.val_main_v21
  rw [Host.reduce_eq_fold_single FloatOps.minimumf _ _ reducesTo_S2x8192x8192_S2x8192_d2 reduces_last h_S_,
    Cert.Nearest.nearestArr_apply, Read.val_main_cst_5_apply, fold_minimumf]
  unfold Cert.Nearest.nearest
  have hf : (Read.val_main_v19 (F := Ideal) a0 a1 ∘ reduces_last.lift (ix2 b p))
      = fun q : Fin (S2x8192x8192.size 2) => Cert.Nearest.dist (cloud a1) (cloud a0) b p q :=
    funext fun q => by
      show Read.val_main_v19 (F := Ideal) a0 a1 (reduces_last.lift (ix2 b p) q) = _
      rw [lift_last b p q]
      exact table_apply a0 a1 b p q
  rw [hf]
  show Finset.fold min (Ideal.ofBits .f32 0x7F800000#32) _ _ = _
  rw [ofBits_inf_f32]
  rfl

/-- THE REFERENCE IS THE SPECIFICATION: with x, y the transposed clouds, the mean of the nearest distances from x to y
    plus the mean of those from y to x. -/
theorem refTerm_eq (a0 a1 : FVec Ideal S2x3x8192 .f32) :
    refTerm a0 a1 = Cert.Nearest.meanSum reducesTo_S2x8192_S_d0_1 h_S_
      (Cert.Nearest.nearestArr (Cert.Nearest.pts transposes_S2x3x8192_S2x8192x3_0_2_1 a0) (Cert.Nearest.pts transposes_S2x3x8192_S2x8192x3_0_2_1 a1))
      (Cert.Nearest.nearestArr (Cert.Nearest.pts transposes_S2x3x8192_S2x8192x3_0_2_1 a1) (Cert.Nearest.pts transposes_S2x3x8192_S2x8192x3_0_2_1 a0)) := by
  refine (Read.val_main_v26_eq (F := Ideal) a0 a1).trans ?_
  unfold Read.val_main_v26 Read.val_main_v23 Read.val_main_v25 Read.val_main_v22 Read.val_main_v24
  rw [min_mid a0 a1, min_last a0 a1]
  rfl

end Cert.ReferenceIdeal.RefValue

end
-- ==== Proof.lean ====
/-
  The certificate: the Pallas nearest-point kernels compute the symmetric nearest-distance loss of the reference.

  Two clouds x, y of 8192 points of ℝ³ in each of 2 batches. The reference forms the full 8192 × 8192 table of smoothed
  distances √(ε + max (‖y_i‖² + ‖x_j‖² − 2⟨y_i, x_j⟩) 0), takes its minima along both axes and returns the sum of
  their means. The kernel program never forms the table: one kernel, launched twice with the clouds swapped, walks a
  grid of 8 blocks of 1024 "outer" points by 16 tiles of 512 "inner" points, keeps a running minimum per outer point in
  a scratch buffer (reset at the first tile, lowered at every tile, copied out at the last), and the host adds the two
  means. Over the extended reals the two agree: the distance is symmetric in its two points (commutativity of + and ·
  only, so the inputs' finiteness is never used), and a minimum over 8192 points is the minimum of the sixteen tile
  minima in any grouping (the minimum's universal property).

  The frames: each kernel region is certified from its body's three control cases (first, middle, last tile) with an
  invariant that names the scratch's contents between grid points; the two regions and the host operations around them
  are composed in @main's order. The reference is a straight line of host operations. The ideal pass rewrote nothing,
  so `preserves` is trivial.
-/
import proofs.«161768_j87170656240054_1_alg».proof.Defs
import proofs.«161768_j87170656240054_1_alg».proof.Proof.Gen.Kernel
import proofs.«161768_j87170656240054_1_alg».proof.Proof.Gen.KernelIdeal
import proofs.«161768_j87170656240054_1_alg».proof.Proof.Gen.ReferenceIdeal
import proofs.«161768_j87170656240054_1_alg».proof.Proof.Gen.Pre_finite_inputs
import proofs.«161768_j87170656240054_1_alg».proof.Proof.Gen.ReferenceIdeal.Run
import proofs.«161768_j87170656240054_1_alg».proof.Proof.K.Run
import proofs.«161768_j87170656240054_1_alg».proof.Proof.KI.Value
import proofs.«161768_j87170656240054_1_alg».proof.Proof.RefValue
import Idealize.ShloMosaic.Adequacy
import Idealize.ShloMosaic.Init

noncomputable section

namespace Cert.Proof

open Idealize.ShloMosaic Idealize.SL.Sem

/-- The printed kernel program runs to the end and leaves both clouds as launched. -/
theorem frame_k : Cert.frame_Kernel := fun m ρ _ => Cert.Kernel.Whole.frame m ρ
/-- So does its idealization. -/
theorem frame_ki : Cert.frame_KernelIdeal := fun m ρ _ => Cert.KernelIdeal.Whole.frame m ρ
/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the mean of the nearest distances from x to y plus the mean of those from y to x. -/
theorem algebraic : Cert.algebraic_KernelIdeal_ReferenceIdeal := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.refTerm_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
